-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  main_v3
-- ==== Kernel.lean ====
abbrev S32x3x512x512 : Shape := ⟨4, ![32, 3, 512, 512]⟩
abbrev S32x1x256 : Shape := ⟨3, ![32, 1, 256]⟩
abbrev S1x3x32x512 : Shape := ⟨4, ![1, 3, 32, 512]⟩
abbrev S1x1x256 : Shape := ⟨3, ![1, 1, 256]⟩
abbrev S3x32x512 : Shape := ⟨3, ![3, 32, 512]⟩
abbrev S32x512 : Shape := ⟨2, ![32, 512]⟩
abbrev S1x1x128 : Shape := ⟨3, ![1, 1, 128]⟩
abbrev S32x512x1 : Shape := ⟨3, ![32, 512, 1]⟩
abbrev S32x512x128 : Shape := ⟨3, ![32, 512, 128]⟩
abbrev S32x128 : Shape := ⟨2, ![32, 128]⟩
abbrev S128 : Shape := ⟨1, ![128]⟩
abbrev S256 : Shape := ⟨1, ![256]⟩
abbrev S32x256 : Shape := ⟨2, ![32, 256]⟩
abbrev S_ : Shape := ⟨0, ![]⟩
abbrev S1 : Shape := ⟨1, ![1]⟩
abbrev S32 : Shape := ⟨1, ![32]⟩

abbrev nBuf : Space → Nat
  | .hbm => 22
  | .vmem => 5
  | .smem => 0
  | _ => 0

abbrev bufTy : (tb : Table) → Fin (tcTables nBuf tb) → BufTy
  | .hbm, ⟨0, _⟩ => ⟨S32x3x512x512, .f32⟩
  | .hbm, ⟨1, _⟩ => ⟨S32x1x256, .f32⟩
  | .hbm, ⟨2, _⟩ => ⟨S32x256, .f32⟩
  | .hbm, ⟨3, _⟩ => ⟨S_, .i32⟩
  | .hbm, ⟨4, _⟩ => ⟨S1, .i32⟩
  | .hbm, ⟨5, _⟩ => ⟨S_, .f32⟩
  | .hbm, ⟨6, _⟩ => ⟨S32, .f32⟩
  | .hbm, ⟨7, _⟩ => ⟨S32x256, .f32⟩
  | .hbm, ⟨8, _⟩ => ⟨S_, .f32⟩
  | .hbm, ⟨9, _⟩ => ⟨S32x256, .f32⟩
  | .hbm, ⟨10, _⟩ => ⟨S32x256, .f32⟩
  | .hbm, ⟨11, _⟩ => ⟨S_, .f32⟩
  | .hbm, ⟨12, _⟩ => ⟨S32x256, .f32⟩
  | .hbm, ⟨13, _⟩ => ⟨S32x256, .f32⟩
  | .hbm, ⟨14, _⟩ => ⟨S32x256, .f32⟩
  | .hbm, ⟨15, _⟩ => ⟨S32x256, .f32⟩
  | .hbm, ⟨16, _⟩ => ⟨S_, .f32⟩
  | .hbm, ⟨17, _⟩ => ⟨S32, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S1x3x32x512, .f32⟩
  | .local _ .vmem, ⟨1, _⟩ => ⟨S1x3x32x512, .f32⟩
  | .local _ .vmem, ⟨2, _⟩ => ⟨S1x1x256, .f32⟩
  | .local _ .vmem, ⟨3, _⟩ => ⟨S1x1x256, .f32⟩
  | .local _ .vmem, ⟨4, _⟩ => ⟨S1x1x256, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 16], ![false, false]⟩

def k0_cond2 (i : grid0.Coords) : BitVec 1 :=
  let arg1 : BitVec 32 := BitVec.ofNat 32 (i 1).val
  let c15_i32 : BitVec 32 := 15#32
  let v49 : BitVec 1 := Scalar.cmpi .eq arg1 c15_i32
  let v50 : BitVec 32 := Scalar.extui v49
  let c0_i32_23 : BitVec 32 := 0#32
  let v51 : BitVec 1 := Scalar.cmpi .ne v50 c0_i32_23
  v51

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S1x1x256_S1x1x256_0_0_0 : ∀ a, (![0, 0, 0] : Fin 3 → Nat) a + S1x1x256.size a ≤ S1x1x256.size a
  h_S1x1x256 : 0 < S1x1x256.numel
  shapeCasts_S1x1x256_S1x1x256 : S1x1x256.ShapeCasts S1x1x256
  inb_S1x3x32x512_S1x3x32x512_0_0_0_0 : ∀ a, (![0, 0, 0, 0] : Fin 4 → Nat) a + S1x3x32x512.size a ≤ S1x3x32x512.size a
  h_S1x3x32x512 : 0 < S1x3x32x512.numel
  shapeCasts_S1x3x32x512_S3x32x512 : S1x3x32x512.ShapeCasts S3x32x512
  reduces_S3x32x512_S32x512 : S3x32x512.Reduces [0] S32x512
  iota_S1x1x128_d2_w32 : S1x1x128.Iotas .tc 32 [2]
  shapeCasts_S32x512_S32x512x1 : S32x512.ShapeCasts S32x512x1
  broadcasts_S32x512x1_S32x512x128 : S32x512x1.Broadcasts S32x512x128
  broadcasts_S1x1x128_S32x512x128 : S1x1x128.Broadcasts S32x512x128
  natLt_1_32 : 1 < 32
  reduces_S32x512x128_S32x128 : S32x512x128.Reduces [1] S32x128
  reduces_S32x128_S128 : S32x128.Reduces [0] S128
  inb_S1x1x256_S1x1x128_0_0_0 : ∀ a, (![0, 0, 0] : Fin 3 → Nat) a + S1x1x128.size a ≤ S1x1x256.size a
  h_S1x1x128 : 0 < S1x1x128.numel
  shapeCasts_S1x1x128_S128 : S1x1x128.ShapeCasts S128
  shapeCasts_S128_S1x1x128 : S128.ShapeCasts S1x1x128
  inb_S1x1x256_S1x1x128_0_0_128 : ∀ a, (![0, 0, 128] : Fin 3 → Nat) a + S1x1x128.size a ≤ S1x1x256.size a
  shapeCasts_S1x1x256_S256 : S1x1x256.ShapeCasts S256
  shapeCasts_S256_S1x1x256 : S256.ShapeCasts S1x1x256
  shapeCasts_S32x1x256_S32x256 : S32x1x256.ShapeCasts S32x256
  bcast_S_S1 : S_.BroadcastsInDim S1 (![] : Fin 0 → Fin S1.rank)
  bcast_S_S32 : S_.BroadcastsInDim S32 (![] : Fin 0 → Fin S32.rank)
  bcast_S_S32x256 : S_.BroadcastsInDim S32x256 (![] : Fin 0 → Fin S32x256.rank)
  reducesTo_S32x256_S32_d1 : S32x256.ReducesTo [1] S32
  h_S_ : 0 < S_.numel
  reducesTo_S32_S_d0 : S32.ReducesTo [0] S_
  scatter_S32x256_S1_S32_0_1_1_0_wf : ScatterDims.WF S32x256 S1 S32 [0] [1] [1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x32x512.size a ≤ S32x3x512x512.size a
  hwx0_0 : ∀ i : grid0.Coords, EltTy.bits .f32 = 32 ∨ (Rect.block (s := S32x3x512x512) S1x3x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256.size a ≤ S32x1x256.size a
  hwx0_1 : ∀ i : grid0.Coords, EltTy.bits .f32 = 32 ∨ (Rect.block (s := S32x1x256) S1x1x256.size (cc0_transform_1 i) (hinb0_1 i)).WholeWords (EltTy.packing .f32)

variable [Facts₀]

def scatter_S32x256_S1_S32_0_1_1_0 : ScatterDims S32x256 S1 S32 where
  updateWindowDims := [0]
  insertedWindowDims := [1]
  scatterDimsToOperandDims := [1]
  indexVectorDim := 0
  wf := scatter_S32x256_S1_S32_0_1_1_0_wf

abbrev win0_0 : Pipeline.Window sig grid0 :=
  Pipeline.Window.ofSpec (Memref.whole main_arg0) S1x3x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S32x3x512x512 : Shape := ⟨4, ![32, 3, 512, 512]⟩
abbrev S_ : Shape := ⟨0, ![]⟩
abbrev S32x512x512 : Shape := ⟨3, ![32, 512, 512]⟩
abbrev S32x262144 : Shape := ⟨2, ![32, 262144]⟩
abbrev S32x256 : Shape := ⟨2, ![32, 256]⟩
abbrev S32 : Shape := ⟨1, ![32]⟩
abbrev S32x1 : Shape := ⟨2, ![32, 1]⟩
abbrev S32x262144x1 : Shape := ⟨3, ![32, 262144, 1]⟩
abbrev S32x262144x2 : Shape := ⟨3, ![32, 262144, 2]⟩
abbrev S1 : Shape := ⟨1, ![1]⟩

abbrev nBuf : Space → Nat
  | .hbm => 63
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S_, .f32⟩
  | .hbm, ⟨2, _⟩ => ⟨S32x3x512x512, .f32⟩
  | .hbm, ⟨3, _⟩ => ⟨S32x3x512x512, .f32⟩
  | .hbm, ⟨4, _⟩ => ⟨S_, .f32⟩
  | .hbm, ⟨5, _⟩ => ⟨S32x512x512, .f32⟩
  | .hbm, ⟨6, _⟩ => ⟨S_, .f32⟩
  | .hbm, ⟨7, _⟩ => ⟨S32x512x512, .f32⟩
  | .hbm, ⟨8, _⟩ => ⟨S32x512x512, .f32⟩
  | .hbm, ⟨9, _⟩ => ⟨S32x512x512, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S32x512x512, .i32⟩
  | .hbm, ⟨14, _⟩ => ⟨S32x512x512, .i32⟩
  | .hbm, ⟨15, _⟩ => ⟨S_, .i32⟩
  | .hbm, ⟨16, _⟩ => ⟨S32x512x512, .i32⟩
  | .hbm, ⟨17, _⟩ => ⟨S32x512x512, .i32⟩
  | .hbm, ⟨18, _⟩ => ⟨S32x262144, .i32⟩
  | .hbm, ⟨19, _⟩ => ⟨S_, .f32⟩
  | .hbm, ⟨20, _⟩ => ⟨S32x256, .f32⟩
  | .hbm, ⟨21, _⟩ => ⟨S32, .i32⟩
  | .hbm, ⟨22, _⟩ => ⟨S32x1, .i32⟩
  | .hbm, ⟨23, _⟩ => ⟨S_, .i32⟩
  | .hbm, ⟨24, _⟩ => ⟨S32x1, .i32⟩
  | .hbm, ⟨25, _⟩ => ⟨S32x1, .i1⟩
  | .hbm, ⟨26, _⟩ => ⟨S_, .i32⟩
  | .hbm, ⟨27, _⟩ => ⟨S32x1, .i32⟩
  | .hbm, ⟨28, _⟩ => ⟨S32x1, .i32⟩
  | .hbm, ⟨29, _⟩ => ⟨S32x1, .i32⟩
  | .hbm, ⟨30, _⟩ => ⟨S_, .i32⟩
  | .hbm, ⟨31, _⟩ => ⟨S32x262144, .i32⟩
  | .hbm, ⟨32, _⟩ => ⟨S32x262144, .i1⟩
  | .hbm, ⟨33, _⟩ => ⟨S_, .i32⟩
  | .hbm, ⟨34, _⟩ => ⟨S32x262144, .i32⟩
  | .hbm, ⟨35, _⟩ => ⟨S32x262144, .i32⟩
  | .hbm, ⟨36, _⟩ => ⟨S32x262144, .i32⟩
  | .hbm, ⟨37, _⟩ => ⟨S32x262144, .i32⟩
  | .hbm, ⟨38, _⟩ => ⟨S32x262144x1, .i32⟩
  | .hbm, ⟨39, _⟩ => ⟨S32x262144x1, .i32⟩
  | .hbm, ⟨40, _⟩ => ⟨S32x262144x2, .i32⟩
  | .hbm, ⟨41, _⟩ => ⟨S_, .f32⟩
  | .hbm, ⟨42, _⟩ => ⟨S32x262144, .f32⟩
  | .hbm, ⟨43, _⟩ => ⟨S32x256, .f32⟩
  | .hbm, ⟨44, _⟩ => ⟨S_, .i32⟩
  | .hbm, ⟨45, _⟩ => ⟨S1, .i32⟩
  | .hbm, ⟨46, _⟩ => ⟨S_, .f32⟩
  | .hbm, ⟨47, _⟩ => ⟨S32, .f32⟩
  | .hbm, ⟨48, _⟩ => ⟨S32x256, .f32⟩
  | .hbm, ⟨49, _⟩ => ⟨S_, .f32⟩
  | .hbm, ⟨50, _⟩ => ⟨S32x256, .f32⟩
  | .hbm, ⟨51, _⟩ => ⟨S32x256, .f32⟩
  | .hbm, ⟨52, _⟩ => ⟨S_, .f32⟩
  | .hbm, ⟨53, _⟩ => ⟨S32x256, .f32⟩
  | .hbm, ⟨54, _⟩ => ⟨S32x256, .f32⟩
  | .hbm, ⟨55, _⟩ => ⟨S32x256, .f32⟩
  | .hbm, ⟨56, _⟩ => ⟨S32x256, .f32⟩
  | .hbm, ⟨57, _⟩ => ⟨S_, .f32⟩
  | .hbm, ⟨58, _⟩ => ⟨S32, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_c_2 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_4 : Ref sig .tc := ⟨.hbm, 23, rfl⟩
abbrev main_v11 : Ref sig .tc := ⟨.hbm, 24, rfl⟩
abbrev main_v12 : Ref sig .tc := ⟨.hbm, 25, rfl⟩
abbrev main_c_5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_6 : Ref sig .tc := ⟨.hbm, 30, rfl⟩
abbrev main_v16 : Ref sig .tc := ⟨.hbm, 31, rfl⟩
abbrev main_v17 : Ref sig .tc := ⟨.hbm, 32, rfl⟩
abbrev main_c_7 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_8 : Ref sig .tc := ⟨.hbm, 41, rfl⟩
abbrev main_v25 : Ref sig .tc := ⟨.hbm, 42, rfl⟩
abbrev main_v26 : Ref sig .tc := ⟨.hbm, 43, rfl⟩
abbrev main_c_9 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_v29 : Ref sig .tc := ⟨.hbm, 48, rfl⟩
abbrev main_cst_11 : Ref sig .tc := ⟨.hbm, 49, rfl⟩
abbrev main_v30 : Ref sig .tc := ⟨.hbm, 50, rfl⟩
abbrev main_v31 : Ref sig .tc := ⟨.hbm, 51, rfl⟩
abbrev main_cst_12 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_13 : Ref sig .tc := ⟨.hbm, 57, rfl⟩
abbrev main_v36 : Ref sig .tc := ⟨.hbm, 58, rfl⟩
abbrev main_cst_14 : Ref sig .tc := ⟨.hbm, 59, rfl⟩
abbrev main_v37 : Ref sig .tc := ⟨.hbm, 60, rfl⟩
abbrev main_cst_15 : Ref sig .tc := ⟨.hbm, 61, rfl⟩
abbrev main_v38 : Ref sig .tc := ⟨.hbm, 62, rfl⟩

abbrev nD : Nat := 1
abbrev τ : Topo := Topo.v7x

variable {F : FTy → Type} [FloatOps F]

class Facts₀ : Prop where
  bcast_S_S32x3x512x512 : S_.BroadcastsInDim S32x3x512x512 (![] : Fin 0 → Fin S32x3x512x512.rank)
  reducesTo_S32x3x512x512_S32x512x512_d1 : S32x3x512x512.ReducesTo [1] S32x512x512
  h_S_ : 0 < S_.numel
  bcast_S_S32x512x512 : S_.BroadcastsInDim S32x512x512 (![] : Fin 0 → Fin S32x512x512.rank)
  shapeCasts_S32x512x512_S32x262144 : S32x512x512.ShapeCasts S32x262144
  bcast_S_S32x256 : S_.BroadcastsInDim S32x256 (![] : Fin 0 → Fin S32x256.rank)
  bcast_S32_S32x1_0 : S32.BroadcastsInDim S32x1 (![0] : Fin 1 → Fin S32x1.rank)
  bcast_S_S32x1 : S_.BroadcastsInDim S32x1 (![] : Fin 0 → Fin S32x1.rank)
  bcast_S_S32x262144 : S_.BroadcastsInDim S32x262144 (![] : Fin 0 → Fin S32x262144.rank)
  bcast_S32x1_S32x262144_0_1 : S32x1.BroadcastsInDim S32x262144 (![0, 1] : Fin 2 → Fin S32x262144.rank)
  bcast_S32x262144_S32x262144x1_0_1 : S32x262144.BroadcastsInDim S32x262144x1 (![0, 1] : Fin 2 → Fin S32x262144x1.rank)
  concatenates_S32x262144x1_S32x262144x1_S32x262144x2_d2 : Shape.Concatenates [S32x262144x1, S32x262144x1] S32x262144x2 2
  bcast_S_S1 : S_.BroadcastsInDim S1 (![] : Fin 0 → Fin S1.rank)
  bcast_S_S32 : S_.BroadcastsInDim S32 (![] : Fin 0 → Fin S32.rank)
  reducesTo_S32x256_S32_d1 : S32x256.ReducesTo [1] S32
  reducesTo_S32_S_d0 : S32.ReducesTo [0] S_
  scatter_S32x256_S32x262144x2_S32x262144_n_01_01_2_wf : ScatterDims.WF S32x256 S32x262144x2 S32x262144 [] [0, 1] [0, 1] 2
  scatter_S32x256_S1_S32_0_1_1_0_wf : ScatterDims.WF S32x256 S1 S32 [0] [1] [1] 0

variable [Facts₀]

def scatter_S32x256_S32x262144x2_S32x262144_n_01_01_2 : ScatterDims S32x256 S32x262144x2 S32x262144 where
  updateWindowDims := []
  insertedWindowDims := [0, 1]
  scatterDimsToOperandDims := [0, 1]
  indexVectorDim := 2
  wf := scatter_S32x256_S32x262144x2_S32x262144_n_01_01_2_wf
def scatter_S32x256_S1_S32_0_1_1_0 : ScatterDims S32x256 S1 S32 where
  updateWindowDims := [0]
  insertedWindowDims := [1]
  scatterDimsToOperandDims := [1]
  indexVectorDim := 0
  wf := scatter_S32x256_S1_S32_0_1_1_0_wf

class Facts : Prop extends Facts₀ where

variable [Facts]
-- ==== Proof.Spec.lean ====
/-
  The histogram both programs compute, as plain functions of the image.

  The image is x : [32, 3, 512, 512]. A pixel (b, row, col) has a VALUE — the kernel takes the mean of the three
  channels and multiplies by 255, the reference multiplies each channel by 255 and then takes the mean — and a BIN:
  the value truncated toward zero to a 32-bit integer and clamped to [0, 255]. The COUNT of bin k in image b is the
  number of its pixels whose bin is k, as an extended real. The kernel accumulates the count tile by tile (16 tiles
  of 32 rows); the reference adds a one per pixel through a scatter over the 262144 flattened pixels.
  For finite inputs the two values are the same real number, and both counts are the same finite sum, re-indexed.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.Hist

open Idealize.ShloMosaic Idealize.ShloMosaic.ValueIdx

/-- The image: an extended real per (batch, channel, row, column). -/
abbrev Img : Type := (⟨4, ![32, 3, 512, 512]⟩ : Shape).Idx → EReal

/-- The words of the two constants the pixel value is made with. -/
abbrev w3 : BitVec 32 := 0x40400000#32
abbrev w255 : BitVec 32 := 0x437F0000#32

/-- A 32-bit integer clamped to [0, 255] (signed maximum with 0, then signed minimum with 255). -/
def clip (v : BitVec 32) : BitVec 32 := IntOp.minsi 255#32 (IntOp.maxsi 0#32 v)

/-- The bin of a pixel value: truncated toward zero, then clamped. -/
def binOf (v : EReal) : BitVec 32 := clip (Ideal.fptosi 32 v)

/-- One where two integers agree, zero elsewhere. -/
def ind (a b : BitVec 32) : EReal := if a = b then 1 else 0

/-- The kernel's pixel value: the channel sum divided by 3, times 255. -/
def pixK (x : Img) (b : Fin 32) (row col : Fin 512) : EReal :=
  Ideal.div (∑ c : Fin 3, x (ix4 b c row col)) (Ideal.ofBits .f32 w3) * Ideal.ofBits .f32 w255

/-- The reference's pixel value: the sum from zero of the channels times 255, divided by 3. -/
def pixR (x : Img) (b : Fin 32) (row col : Fin 512) : EReal :=
  Ideal.div (Ideal.ofBits .f32 0x00000000#32 + ∑ c : Fin 3, x (ix4 b c row col) * Ideal.ofBits .f32 w255) (Ideal.ofBits .f32 w3)

/-- Batch number and row number from naturals (reduced into range: on the grid they are in range already). -/
def batchOf (b : ℕ) : Fin 32 := ⟨b % 32, Nat.mod_lt _ (by norm_num)⟩
def rowOf (h : ℕ) (r : Fin 32) : Fin 512 := ⟨(32 * h + r.val) % 512, Nat.mod_lt _ (by norm_num)⟩

/-- What tile h of image b adds to bin k: over the tile's 32 rows and 512 columns, the pixels whose bin is k. -/
def partK (x : Img) (b h : ℕ) (k : BitVec 32) : EReal :=
  ∑ r : Fin 32, ∑ col : Fin 512, ind (binOf (pixK x (batchOf b) (rowOf h r) col)) k

/-- The kernel's count of bin k in image b: the 16 tiles' parts. -/
def cntK (x : Img) (b : ℕ) (k : BitVec 32) : EReal := ∑ h ∈ Finset.range 16, partK x b h k

/-- The reference's count: over the 262144 flattened pixels p = 512·row + col. -/
def cntR (x : Img) (b : Fin 32) (k : BitVec 32) : EReal :=
  ∑ p : Fin 262144, ind (binOf (pixR x b ⟨p.val / 512, by have := p.isLt; omega⟩ ⟨p.val % 512, Nat.mod_lt _ (by norm_num)⟩)) k

end Cert.Hist

end
-- ==== Proof.SpecLaws.lean ====
/-
  The laws that join the kernel's histogram to the reference's.

  The two constants are the reals 3 and 255. On a finite pixel (three real channel values) the kernel's value
  ((a + b + c) / 3) · 255 and the reference's (0 + (a·255 + b·255 + c·255)) / 3 are one real number: division by the
  real 3 is multiplication by 1/3, and over the reals the product distributes. The reference counts over the flattened
  pixel number p = 512·row + col; the kernel over tile h, row r of the tile (row = 32·h + r) and column: the same
  finite sum, re-indexed through the two products Fin 512 × Fin 512 ≃ Fin 262144 and Fin 16 × Fin 32 ≃ Fin 512.
-/
import proofs.«145347_j81037442941133_1_alg».proof.Proof.Spec

noncomputable section

namespace Cert.Hist

open Idealize.ShloMosaic Idealize.ShloMosaic.ValueIdx

/-! ## The constants -/

theorem ofBits_w3 : Ideal.ofBits .f32 w3 = ((3 : ℝ) : EReal) := by
  simp [w3, Ideal.ofBits, Ideal.ieee, -EReal.coe_mul]; norm_num
theorem ofBits_w255 : Ideal.ofBits .f32 w255 = ((255 : ℝ) : EReal) := by
  simp [w255, Ideal.ofBits, Ideal.ieee, -EReal.coe_mul]; norm_num

/-! ## The two pixel values agree on finite inputs -/

theorem pix_eq (x : Img) (hx : ∀ i, ∃ r : ℝ, x i = (r : EReal)) (b : Fin 32) (row col : Fin 512) :
    pixK x b row col = pixR x b row col := by
  obtain ⟨r0, h0⟩ := hx (ix4 b 0 row col)
  obtain ⟨r1, h1⟩ := hx (ix4 b 1 row col)
  obtain ⟨r2, h2⟩ := hx (ix4 b 2 row col)
  unfold pixK pixR
  rw [Fin.sum_univ_three, Fin.sum_univ_three, h0, h1, h2, ofBits_w3, ofBits_w255, Ideal.ofBits_zero_f32,
    Ideal.div_coe (by norm_num : (3 : ℝ) ≠ 0), Ideal.div_coe (by norm_num : (3 : ℝ) ≠ 0), zero_add]
  simp only [← EReal.coe_mul, ← EReal.coe_add]
  congr 1
  ring

/-! ## The flattened pixels are the rows and columns; the rows are the tiles' rows -/

theorem sum_flat {M : Type} [AddCommMonoid M] (f : Fin 512 → Fin 512 → M) :
    ∑ p : Fin 262144, f ⟨p.val / 512, by have := p.isLt; omega⟩ ⟨p.val % 512, Nat.mod_lt _ (by norm_num)⟩
      = ∑ row : Fin 512, ∑ col : Fin 512, f row col := by
  show ∑ p : Fin (512 * 512), f ⟨p.val / 512, by have := p.isLt; omega⟩ ⟨p.val % 512, Nat.mod_lt _ (by norm_num)⟩ = _
  rw [← Equiv.sum_comp finProdFinEquiv, Fintype.sum_prod_type]
  refine Finset.sum_congr rfl fun row _ => Finset.sum_congr rfl fun col _ => ?_
  have hr := row.isLt
  have hc := col.isLt
  congr 1 <;> (apply Fin.ext; simp only [finProdFinEquiv_apply_val]; omega)

theorem sum_rows {M : Type} [AddCommMonoid M] (G : Fin 512 → M) :
    ∑ row : Fin 512, G row = ∑ h ∈ Finset.range 16, ∑ r : Fin 32, G (rowOf h r) := by
  rw [← Fin.sum_univ_eq_sum_range (fun h => ∑ r : Fin 32, G (rowOf h r)) 16]
  show ∑ row : Fin (16 * 32), G row = _
  rw [← Equiv.sum_comp finProdFinEquiv, Fintype.sum_prod_type]
  refine Finset.sum_congr rfl fun h _ => Finset.sum_congr rfl fun r _ => ?_
  have hh := h.isLt
  have hr := r.isLt
  congr 1
  apply Fin.ext
  simp only [finProdFinEquiv_apply_val, rowOf]
  omega

/-- For finite inputs the kernel's and the reference's counts of a bin are the same sum. -/
theorem cnt_eq (x : Img) (hx : ∀ i, ∃ r : ℝ, x i = (r : EReal)) (b : Fin 32) (k : BitVec 32) :
    cntK x b.val k = cntR x b k := by
  have hb : batchOf b.val = b := Fin.ext (Nat.mod_eq_of_lt b.isLt)
  unfold cntK cntR partK
  rw [hb, sum_flat (fun row col => ind (binOf (pixR x b row col)) k),
    sum_rows (fun row => ∑ col : Fin 512, ind (binOf (pixR x b row col)) k)]
  refine Finset.sum_congr rfl fun h _ => Finset.sum_congr rfl fun r _ => Finset.sum_congr rfl fun col _ => ?_
  rw [pix_eq x hx]

end Cert.Hist

end
-- ==== Proof.Finite.lean ====
import proofs.«145347_j81037442941133_1_alg».proof.Proof.Gen.Pre_finite_inputs
import Idealize.ShloMosaic.Lib.ReduceAll
import Idealize.ShloMosaic.Lib.ValueIdx
import Idealize.ShloMosaic.PureOps.Ideal.Laws

/-! Finite inputs are real. The precondition is a conjunction over all indices of |x i| < +∞ in the
extended reals, so each conjunct holds; at a = ±∞ the value |a| = max a (-a) is +∞, which is not
below +∞, so every entry is a real number. -/

namespace Cert.Hist

open Idealize.ShloMosaic

instance : Subsingleton Cert.Pre_finite_inputs.S_.Idx := ⟨fun a b => funext fun d => d.elim0⟩

theorem ofBits_inf : Ideal.ofBits .f32 0x7F800000#32 = (⊤ : EReal) := by
  simp [Ideal.ofBits, Ideal.ieee]

theorem real_of_abs_olt_top (a : EReal) (h : Ideal.cmp .olt (max a (-a)) ⊤ = 1#1) : ∃ r : ℝ, a = (r : EReal) := by
  induction a using EReal.rec with
  | bot => simp [Ideal.cmp] at h
  | coe r => exact ⟨r, rfl⟩
  | top => simp [Ideal.cmp] at h

theorem real_of_finite (x : FVec Ideal Cert.Pre_finite_inputs.S32x3x512x512 .f32)
    (h : Cert.Pre_finite_inputs.fn (F := Ideal) x = fun _ => 1#1) (i : Cert.Pre_finite_inputs.S32x3x512x512.Idx) :
    ∃ r : ℝ, x i = (r : EReal) := by
  have h0 := congrFun h ValueIdx.ix0
  dsimp only [Cert.Pre_finite_inputs.fn] at h0
  have hi := Host.reduce_andi_all _ _ _ _ _ h0 i
  have hlt : Ideal.cmp .olt (max (x i) (-(x i))) (Ideal.ofBits .f32 0x7F800000#32) = 1#1 := hi
  rw [ofBits_inf] at hlt
  exact real_of_abs_olt_top (x i) hlt

end Cert.Hist
-- ==== Proof.KStep.lean ====
/-
  ONE STEP OF THE HISTOGRAM ACCUMULATION. The kernel body keeps a [1,1,256] accumulator of bin counts between grid
  points and updates it in two halves of 128 bins: the low half becomes a function (`k0_pay5`) of the input block and
  the low half's previous counts, the high half a function (`k0_pay1`) of the block's bin indices and the high
  half's previous counts. `step x acc` names the accumulator after one such update, as the contents two stores
  through the half rectangles `rLo` and `rHi` leave. The three cases of the generated frame agree with it:
  at a first point of a row the accumulator is filled with zeros first (`step x k0_pay3`), at the other points it is
  what the point before left (`step x xs`), and at a last point the output block receives the updated accumulator
  unchanged (two shape casts, there and back). Last, `step` and the half loads read at one bin.
-/
import proofs.«145347_j81037442941133_1_alg».proof.Proof.Gen.KernelIdeal.Frame
import Idealize.ShloMosaic.Lib.Pipeline.Value
import Idealize.ShloMosaic.Lib.Pipeline.FrameBody
import Idealize.ShloMosaic.Lib.ValueIdx
import Idealize.ShloMosaic.Lib.Tactic
set_option maxRecDepth 16384
noncomputable section
namespace Cert.KernelIdeal.KVal
open Cert.KernelIdeal Cert.KernelIdeal.Gen Idealize.ShloMosaic Idealize.ShloMosaic.ValueIdx
variable {F : FTy → Type} [FloatOps F]

abbrev rLo : Rect S1x1x256 := Rect.unit (s := S1x1x256) ![0, 0, 0] S1x1x128.size inb_S1x1x256_S1x1x128_0_0_0
abbrev rHi : Rect S1x1x256 := Rect.unit (s := S1x1x256) ![0, 0, 128] S1x1x128.size inb_S1x1x256_S1x1x128_0_0_128

/-- The accumulator after one update from input block `x` over previous counts `acc`. -/
def step (x : Vec F S1x3x32x512 .f32) (acc : Vec F S1x1x256 .f32) : Vec F S1x1x256 .f32 :=
  View.canon [⟨rHi, k0_pay1 (k0_pay4 x) k0_pay6 (View.ld acc rHi)⟩, ⟨rLo, k0_pay5 x (View.ld acc rLo)⟩]

/-- The zero offsets of rank 4 and rank 3, as constant functions. -/
theorem hz4 : (![0, 0, 0, 0] : Fin 4 → Nat) = fun _ => 0 := by
  funext a; fin_cases a <;> rfl
theorem hz3 : (![0, 0, 0] : Fin 3 → Nat) = fun _ => 0 := by
  funext a; fin_cases a <;> rfl

/-- The two half rectangles cover the accumulator: an index whose last coordinate is below 128 lies in the low
    half, any other in the high half. -/
theorem cover_lo_hi (y : S1x1x256.Idx) : y ∈ rHi.set ∨ y ∈ rLo.set := by
  obtain ⟨a, b, k, rfl⟩ : ∃ (a : Fin 1) (b : Fin 1) (k : Fin 256), y = ix3 a b k := ⟨_, _, _, eq_ix3 y⟩
  by_cases h : k.val < 128
  · right
    rw [Rect.mem_set_unit]
    intro d
    match d with
    | ⟨0, _⟩ => exact ⟨Nat.zero_le _, by show a.val < 0 + 1; omega⟩
    | ⟨1, _⟩ => exact ⟨Nat.zero_le _, by show b.val < 0 + 1; omega⟩
    | ⟨2, _⟩ => exact ⟨Nat.zero_le _, by show k.val < 0 + 128; omega⟩
  · left
    rw [Rect.mem_set_unit]
    intro d
    match d with
    | ⟨0, _⟩ => exact ⟨Nat.zero_le _, by show a.val < 0 + 1; omega⟩
    | ⟨1, _⟩ => exact ⟨Nat.zero_le _, by show b.val < 0 + 1; omega⟩
    | ⟨2, _⟩ => exact ⟨by show 128 ≤ k.val; omega, by show k.val < 128 + 128; omega⟩

/-- The two halves are disjoint: they are separated on the last axis. -/
theorem disjoint_lo_hi : Disjoint rLo.set rHi.set :=
  Rect.unit_disjoint (⟨2, by decide⟩ : Fin S1x1x256.rank) (Or.inl (by decide))

/-- Where the low half places its index `(0, 0, j)`: at `(0, 0, j)`. -/
theorem emb_lo (j : Fin 128) :
    rLo.emb (ix3 (0 : Fin 1) (0 : Fin 1) j) = ix3 (0 : Fin 1) (0 : Fin 1) (⟨j.val, by omega⟩ : Fin 256) := by
  funext d; apply Fin.ext; rw [Rect.emb_apply]
  match d with
  | ⟨0, _⟩ => rfl
  | ⟨1, _⟩ => rfl
  | ⟨2, _⟩ => show 0 + 1 * j.val = j.val; omega

/-- Where the high half places its index `(0, 0, j)`: at `(0, 0, j + 128)`. -/
theorem emb_hi (j : Fin 128) :
    rHi.emb (ix3 (0 : Fin 1) (0 : Fin 1) j) = ix3 (0 : Fin 1) (0 : Fin 1) (⟨j.val + 128, by omega⟩ : Fin 256) := by
  funext d; apply Fin.ext; rw [Rect.emb_apply]
  match d with
  | ⟨0, _⟩ => rfl
  | ⟨1, _⟩ => rfl
  | ⟨2, _⟩ => show 128 + 1 * j.val = j.val + 128; omega

/-- Once both halves are stored, whatever was stored before them no longer shows. -/
theorem canon_halves {Val : EltTy → Type} [∀ e, Nonempty (Val e)] {e : EltTy}
    (wH : rHi.shape.Idx → Val e) (wL : rLo.shape.Idx → Val e) (L : List (View.Piece Val S1x1x256 e)) :
    View.canon (⟨rHi, wH⟩ :: ⟨rLo, wL⟩ :: L) = View.canon [⟨rHi, wH⟩, ⟨rLo, wL⟩] := by
  funext y
  by_cases hH : y ∈ rHi.set
  · obtain ⟨x, rfl⟩ : ∃ x, rHi.emb x = y := rHi.exists_idx_of_mem hH
    rw [View.canon_cons_emb, View.canon_cons_emb]
  · have hL : y ∈ rLo.set := (cover_lo_hi y).resolve_left hH
    rw [View.canon_cons_of_not_mem (⟨rHi, wH⟩ : View.Piece Val S1x1x256 e) _ hH,
      View.canon_cons_of_not_mem (⟨rHi, wH⟩ : View.Piece Val S1x1x256 e) _ hH]
    obtain ⟨x, rfl⟩ : ∃ x, rLo.emb x = y := rLo.exists_idx_of_mem hL
    rw [View.canon_cons_emb, View.canon_cons_emb]

/-- A load of the low half after the accumulator was filled whole with `z` reads `z` there. -/
theorem readCov_fill_lo {sg : RefSig} {κ : Kind} {sp : Space} (v : View sg κ sp S1x1x256 .f32) (z : Vec F S1x1x256 .f32) :
    v.readCov [(⟨Rect.unit (s := S1x1x256) ![0, 0, 0] S1x1x256.size inb_S1x1x256_S1x1x256_0_0_0, z⟩ : View.Piece (Elt F) S1x1x256 .f32)] rLo.toLoadRect
      = View.ld z rLo := by
  rw [View.readCov_eq_canon', View.canon_unit_zero (S := S1x1x256) hz3]

/-- A load of the high half after the fill and a store to the low half still reads `z`: the low half is disjoint from it. -/
theorem readCov_fill_hi {sg : RefSig} {κ : Kind} {sp : Space} (v : View sg κ sp S1x1x256 .f32) (z : Vec F S1x1x256 .f32)
    (w : rLo.shape.Idx → Elt F .f32) :
    v.readCov [(⟨rLo, w⟩ : View.Piece (Elt F) S1x1x256 .f32), ⟨Rect.unit (s := S1x1x256) ![0, 0, 0] S1x1x256.size inb_S1x1x256_S1x1x256_0_0_0, z⟩] rHi.toLoadRect
      = View.ld z rHi := by
  rw [View.readCov_cons_of_disjoint v (⟨rLo, w⟩ : View.Piece (Elt F) S1x1x256 .f32) _ rHi.toLoadRect disjoint_lo_hi,
    View.readCov_eq_canon', View.canon_unit_zero (S := S1x1x256) hz3]

/-- At a first point of a row: the accumulator is zeroed whole, then updated; the fill no longer shows once both
    halves are stored, and each half's load reads the zeros. -/
theorem sout_A (c : Dev nD) (i : grid0.Coords) (a2 : Memref sig .tc .vmem S1x3x32x512 .f32) (h2 : a2.IsWhole)
    (a3 : Memref sig .tc .vmem S1x1x256 .f32) (h3 : a3.IsWhole) (a4 : Memref sig .tc .vmem S1x1x256 .f32) (h4 : a4.IsWhole)
    (hc0 : cond0_0 i) (hc1 : ¬cond0_1 i) (x : Vec F S1x3x32x512 .f32) :
    sout0_A_0 c i a2 h2 a3 h3 a4 h4 hc0 hc1 x = step x k0_pay3 := by
  unfold sout0_A_0
  rw [View.read_writes_eq_canon _ _ _ (scover0_A_0 c i a2 h2 a3 h3 a4 h4 hc0 hc1 x)]
  unfold kernelRun0_A
  dsimp only
  sl_unfold_words
  simp only [View.readAt_eq_ld, h2.read_unread, View.ld_unit_zero (S := S1x3x32x512) hz4]
  rw [readCov_fill_hi, readCov_fill_lo]
  exact canon_halves _ _ _

/-- At a middle point: both half loads read what the point before left. -/
theorem sout_B (c : Dev nD) (i : grid0.Coords) (a2 : Memref sig .tc .vmem S1x3x32x512 .f32) (h2 : a2.IsWhole)
    (a3 : Memref sig .tc .vmem S1x1x256 .f32) (h3 : a3.IsWhole) (a4 : Memref sig .tc .vmem S1x1x256 .f32) (h4 : a4.IsWhole)
    (hc0 : ¬cond0_0 i) (hc1 : ¬cond0_1 i) (x : Vec F S1x3x32x512 .f32) (xs : Vec F S1x1x256 .f32) :
    sout0_B_0 c i a2 h2 a3 h3 a4 h4 hc0 hc1 x xs = step x xs := by
  unfold sout0_B_0
  rw [View.read_writes_eq_canon _ _ _ (scover0_B_0 c i a2 h2 a3 h3 a4 h4 hc0 hc1 x xs)]
  unfold kernelRun0_B
  dsimp only
  sl_unfold_words
  simp only [View.readAt_eq_ld, h2.read_unread, h4.read_unread, View.ld_unit_zero (S := S1x3x32x512) hz4]
  rfl

/-- At a last point the accumulator is updated as at a middle point. -/
theorem sout_C (c : Dev nD) (i : grid0.Coords) (a2 : Memref sig .tc .vmem S1x3x32x512 .f32) (h2 : a2.IsWhole)
    (a3 : Memref sig .tc .vmem S1x1x256 .f32) (h3 : a3.IsWhole) (a4 : Memref sig .tc .vmem S1x1x256 .f32) (h4 : a4.IsWhole)
    (hc0 : ¬cond0_0 i) (hc1 : cond0_1 i) (x : Vec F S1x3x32x512 .f32) (xs : Vec F S1x1x256 .f32) :
    sout0_C_0 c i a2 h2 a3 h3 a4 h4 hc0 hc1 x xs = step x xs := by
  unfold sout0_C_0
  rw [View.read_writes_eq_canon _ _ _ (scover0_C_0 c i a2 h2 a3 h3 a4 h4 hc0 hc1 x xs)]
  unfold kernelRun0_C
  dsimp only
  sl_unfold_words
  simp only [View.readAt_eq_ld, h2.read_unread, h4.read_unread, View.ld_unit_zero (S := S1x3x32x512) hz4]
  rfl

/-- At a last point the output block is stored the whole accumulator as the two half stores left it, through a
    cast to rank 1 and back: the identity. -/
theorem out_C (c : Dev nD) (i : grid0.Coords) (a2 : Memref sig .tc .vmem S1x3x32x512 .f32) (h2 : a2.IsWhole)
    (a3 : Memref sig .tc .vmem S1x1x256 .f32) (h3 : a3.IsWhole) (a4 : Memref sig .tc .vmem S1x1x256 .f32) (h4 : a4.IsWhole)
    (hc0 : ¬cond0_0 i) (hc1 : cond0_1 i) (x : Vec F S1x3x32x512 .f32) (xs : Vec F S1x1x256 .f32) :
    out0_C_1 c i a2 h2 a3 h3 a4 h4 hc0 hc1 x xs = step x xs := by
  unfold out0_C_1
  rw [View.read_writes_eq_canon _ _ _ (cover0_C_1 c i a2 h2 a3 h3 a4 h4 hc0 hc1 x xs)]
  unfold kernelRun0_C
  dsimp only
  sl_unfold_words
  rw [View.canon_unit_zero (S := S1x1x256) hz3]
  unfold k0_pay2
  dsimp only
  rw [shapeCast_shapeCast, View.readCov_eq_canon']
  simp only [View.readAt_eq_ld, h2.read_unread, h4.read_unread, View.ld_unit_zero (S := S1x3x32x512) hz4]
  exact View.ld_unit_zero (S := S1x1x256) hz3 _ _

/-- `step` at a bin of the low half: the low update at that bin (the high store does not reach it). -/
theorem step_lo (x : Vec F S1x3x32x512 .f32) (acc : Vec F S1x1x256 .f32) (j : Fin 128) :
    step x acc (ix3 (0 : Fin 1) (0 : Fin 1) (⟨j.val, by omega⟩ : Fin 256))
      = k0_pay5 x (View.ld acc rLo) (ix3 (0 : Fin 1) (0 : Fin 1) j) := by
  have hH : rLo.emb (ix3 (0 : Fin 1) (0 : Fin 1) j) ∉ rHi.set :=
    Finset.disjoint_left.mp disjoint_lo_hi (rLo.idx_mem _)
  unfold step
  rw [← emb_lo j, View.canon_cons_of_not_mem (⟨rHi, _⟩ : View.Piece (Elt F) S1x1x256 .f32) _ hH, View.canon_cons_emb]

/-- `step` at a bin of the high half: the high update at that bin. -/
theorem step_hi (x : Vec F S1x3x32x512 .f32) (acc : Vec F S1x1x256 .f32) (j : Fin 128) :
    step x acc (ix3 (0 : Fin 1) (0 : Fin 1) (⟨j.val + 128, by omega⟩ : Fin 256))
      = k0_pay1 (k0_pay4 x) k0_pay6 (View.ld acc rHi) (ix3 (0 : Fin 1) (0 : Fin 1) j) := by
  unfold step
  rw [← emb_hi j, View.canon_cons_emb]

/-- The low half's load at bin `j` reads the accumulator at bin `j`. -/
theorem ld_lo (acc : Vec F S1x1x256 .f32) (j : Fin 128) :
    View.ld acc rLo (ix3 (0 : Fin 1) (0 : Fin 1) j) = acc (ix3 (0 : Fin 1) (0 : Fin 1) (⟨j.val, by omega⟩ : Fin 256)) :=
  congrArg acc (emb_lo j)

/-- The high half's load at bin `j` reads the accumulator at bin `j + 128`. -/
theorem ld_hi (acc : Vec F S1x1x256 .f32) (j : Fin 128) :
    View.ld acc rHi (ix3 (0 : Fin 1) (0 : Fin 1) j) = acc (ix3 (0 : Fin 1) (0 : Fin 1) (⟨j.val + 128, by omega⟩ : Fin 256)) :=
  congrArg acc (emb_hi j)

end Cert.KernelIdeal.KVal
end
-- ==== Proof.KPay.lean ====
/-
  The kernel body's arithmetic read at an index, at the ideal values (a float is an extended real).

  From its tile x : [1, 3, 32, 512] the body forms, per row and column, the channel sum divided by 3 and multiplied by
  255, truncates it toward zero to a 32-bit integer and clamps it to [0, 255]: the pixel's bin. For each of two chunks of
  128 bin numbers (lane j stands for bin j, then for bin j + 128) it compares every pixel's bin with the lane's bin
  number, turns the comparison into 0.0 or 1.0, sums over the 512 columns and then over the 32 rows, and adds the
  result to the accumulator's lane. Read at one lane, that is the accumulator's value plus the double sum over rows and
  columns of the indicator "this pixel's bin is the lane's bin number".

  The layout operations (unit axes added and dropped, the two broadcasts) each read one element of their operand; the
  three reductions are sums over one coordinate; the rest is pointwise.
-/
import proofs.«145347_j81037442941133_1_alg».proof.Proof.Gen.KernelIdeal.Skeleton
import proofs.«145347_j81037442941133_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KVal

open Cert.KernelIdeal Cert.KernelIdeal.Gen Cert.Hist Idealize.ShloMosaic Idealize.ShloMosaic.ValueIdx

/-! ## Layout operations of the body read at an index -/

/-- The tile with its unit batch axis dropped reads the tile at batch 0. -/
theorem cast_tile_apply (x : Vec Ideal S1x3x32x512 .f32) (h : S1x3x32x512.ShapeCasts S3x32x512)
    (c : Fin 3) (r : Fin 32) (col : Fin 512) :
    shapeCast S3x32x512 x h (ix3 c r col) = x (ix4 (0 : Fin 1) c r col) :=
  shapeCast_1abc_abc_apply x h c r col

/-- A [32, 512] vector given a trailing unit axis reads the same element. -/
theorem cast_col_apply {α : Type} (v : S32x512.Idx → α) (h : S32x512.ShapeCasts S32x512x1)
    (r : Fin 32) (col : Fin 512) (u : Fin 1) :
    shapeCast S32x512x1 v h (ix3 r col u) = v (ix2 r col) :=
  shapeCast_apply v h _ _ (by
    have hu : u.val = 0 := by omega
    rw [Shape.rowMajor_val_three, Shape.rowMajor_val_two]
    show r.val * 512 + col.val = (r.val * 512 + col.val) * 1 + u.val
    omega)

/-- The column of bins broadcast along the 128 lanes reads the bin of its row and column. -/
theorem bcast_bins_apply {α : Type} (v : S32x512x1.Idx → α) (h : S32x512x1.Broadcasts S32x512x128)
    (r : Fin 32) (col : Fin 512) (j : Fin 128) :
    broadcastTo S32x512x128 v h (ix3 r col j) = v (ix3 r col (0 : Fin 1)) := by
  refine broadcastTo_apply v h (ix3 r col j) (ix3 r col (0 : Fin 1)) fun ax => ?_
  match ax with
  | ⟨0, _⟩ => rfl
  | ⟨1, _⟩ => rfl
  | ⟨2, _⟩ => rfl

/-- The lane of bin numbers broadcast over rows and columns reads the lane's bin number. -/
theorem bcast_lane_apply {α : Type} (v : S1x1x128.Idx → α) (h : S1x1x128.Broadcasts S32x512x128)
    (r : Fin 32) (col : Fin 512) (j : Fin 128) :
    broadcastTo S32x512x128 v h (ix3 r col j) = v (ix3 (0 : Fin 1) (0 : Fin 1) j) := by
  refine broadcastTo_apply v h (ix3 r col j) (ix3 (0 : Fin 1) (0 : Fin 1) j) fun ax => ?_
  match ax with
  | ⟨0, _⟩ => rfl
  | ⟨1, _⟩ => rfl
  | ⟨2, _⟩ => rfl

/-- A [1, 1, 128] vector flattened reads lane j at (0, 0, j). -/
theorem cast_flat_apply {α : Type} (v : S1x1x128.Idx → α) (h : S1x1x128.ShapeCasts S128) (j : Fin 128) :
    shapeCast S128 v h (ix1 j) = v (ix3 (0 : Fin 1) (0 : Fin 1) j) :=
  shapeCast_apply v h _ _ (by
    rw [Shape.rowMajor_val_three, Shape.rowMajor_val_one]
    show (0 * 1 + 0) * 128 + j.val = j.val
    omega)

/-- A [128] vector given two leading unit axes reads lane j. -/
theorem cast_unflat_apply {α : Type} (v : S128.Idx → α) (h : S128.ShapeCasts S1x1x128) (a b : Fin 1) (j : Fin 128) :
    shapeCast S1x1x128 v h (ix3 a b j) = v (ix1 j) :=
  shapeCast_apply v h _ _ (by
    have ha : a.val = 0 := by omega
    have hb : b.val = 0 := by omega
    rw [Shape.rowMajor_val_three, Shape.rowMajor_val_one]
    show j.val = (a.val * 1 + b.val) * 128 + j.val
    omega)

/-- The lane counter reads the lane's number. -/
theorem iota_lane_apply (h : S1x1x128.Iotas .tc 32 [2]) (a b : Fin 1) (j : Fin 128) :
    iota .tc S1x1x128 32 [2] h (ix3 a b j) = BitVec.ofNat 32 j.val :=
  (iota_single_apply .tc S1x1x128 32 2 h (ix3 a b j)).trans rfl

/-! ## The three sums -/

/-- The channel sum: over axis 0 of the [3, 32, 512] tile. -/
theorem sum_chan_apply (v : FVec Ideal S3x32x512 .f32) (h : S3x32x512.Reduces [0] S32x512) (hφ : FKind.Formats .f32)
    (hacc : (0x00000000#32 : BitVec 32) = FKind.add.neutral .f32 hφ) (r : Fin 32) (col : Fin 512) :
    multiReduction .add [0] S32x512 v 0x00000000#32 h hφ hacc (ix2 r col) = ∑ c : Fin 3, v (ix3 c r col) := by
  refine (Ideal.multiReduction_add_single v 0x00000000#32 h hφ hacc (ix2 r col)).trans ?_
  refine Finset.sum_congr rfl fun c _ => congrArg v ?_
  funext ax
  match ax with
  | ⟨0, _⟩ => exact Fin.ext rfl
  | ⟨1, _⟩ => exact Fin.ext rfl
  | ⟨2, _⟩ => exact Fin.ext rfl

/-- The column sum: over axis 1 of a [32, 512, 128] vector. -/
theorem sum_col_apply (v : FVec Ideal S32x512x128 .f32) (h : S32x512x128.Reduces [1] S32x128) (hφ : FKind.Formats .f32)
    (hacc : (0x00000000#32 : BitVec 32) = FKind.add.neutral .f32 hφ) (r : Fin 32) (j : Fin 128) :
    multiReduction .add [1] S32x128 v 0x00000000#32 h hφ hacc (ix2 r j) = ∑ col : Fin 512, v (ix3 r col j) := by
  refine (Ideal.multiReduction_add_single v 0x00000000#32 h hφ hacc (ix2 r j)).trans ?_
  refine Finset.sum_congr rfl fun c _ => congrArg v ?_
  funext ax
  match ax with
  | ⟨0, _⟩ => exact Fin.ext rfl
  | ⟨1, _⟩ => exact Fin.ext rfl
  | ⟨2, _⟩ => exact Fin.ext rfl

/-- The row sum: over axis 0 of a [32, 128] vector. -/
theorem sum_row_apply (v : FVec Ideal S32x128 .f32) (h : S32x128.Reduces [0] S128) (hφ : FKind.Formats .f32)
    (hacc : (0x00000000#32 : BitVec 32) = FKind.add.neutral .f32 hφ) (j : Fin 128) :
    multiReduction .add [0] S128 v 0x00000000#32 h hφ hacc (ix1 j) = ∑ r : Fin 32, v (ix2 r j) := by
  refine (Ideal.multiReduction_add_single v 0x00000000#32 h hφ hacc (ix1 j)).trans ?_
  refine Finset.sum_congr rfl fun c _ => congrArg v ?_
  funext ax
  match ax with
  | ⟨0, _⟩ => exact Fin.ext rfl
  | ⟨1, _⟩ => exact Fin.ext rfl

/-! ## Words -/

/-- The comparison of two integers, widened and converted to a float, is the indicator of their equality. -/
theorem ind_eq (a b : BitVec 32) :
    FloatOps.sitofp (F := Ideal) .f32 ((IntOp.cmpi .eq a b).setWidth 32) = ind a b := by
  unfold ind
  by_cases h : a = b
  · subst h
    rw [if_pos rfl]
    show (((((BitVec.ofBool (a == a)).setWidth 32).toInt : ℤ) : ℝ) : EReal) = 1
    simp
  · rw [if_neg h]
    show (((((BitVec.ofBool (a == b)).setWidth 32).toInt : ℤ) : ℝ) : EReal) = 0
    have hb : (a == b) = false := by simpa using h
    rw [hb]
    simp

/-- A lane number plus zero. -/
theorem addi_zero (j : ℕ) : IntOp.addi (BitVec.ofNat 32 j) 0#32 = BitVec.ofNat 32 j := by
  show BitVec.ofNat 32 j + 0#32 = _
  simp

/-- A lane number plus 128. -/
theorem addi_128 (j : ℕ) : IntOp.addi (BitVec.ofNat 32 j) 128#32 = BitVec.ofNat 32 (j + 128) := by
  show BitVec.ofNat 32 j + BitVec.ofNat 32 128 = _
  exact (BitVec.ofNat_add ..).symm

/-! ## One chunk of 128 bins -/

/-- One chunk's update at lane j: the accumulator's lane plus, over the tile's rows and columns, the pixels whose bin is
    the lane's bin number. -/
theorem chunk_apply (bins : IVec S32x512 32) (lane : IVec S1x1x128 32) (acc : Vec Ideal S1x1x128 .f32) (j : Fin 128) :
    k0_pay1 (F := Ideal) bins lane acc (ix3 (0 : Fin 1) (0 : Fin 1) j)
      = acc (ix3 (0 : Fin 1) (0 : Fin 1) j)
        + ∑ r : Fin 32, ∑ col : Fin 512, ind (bins (ix2 r col)) (lane (ix3 (0 : Fin 1) (0 : Fin 1) j)) := by
  unfold k0_pay1
  refine (cast_unflat_apply _ _ 0 0 j).trans ?_
  refine (addf_apply _ _ (ix1 j)).trans ?_
  refine congrArg₂ (· + ·) (cast_flat_apply acc _ j) ?_
  refine (sum_row_apply _ _ _ _ j).trans ?_
  refine Finset.sum_congr rfl fun r _ => ?_
  refine (sum_col_apply _ _ _ _ r j).trans ?_
  refine Finset.sum_congr rfl fun col _ => ?_
  refine Eq.trans ?_ (ind_eq (bins (ix2 r col)) (lane (ix3 (0 : Fin 1) (0 : Fin 1) j)))
  refine congrArg (fun t => FloatOps.sitofp (F := Ideal) .f32 (BitVec.setWidth 32 t)) ?_
  refine congrArg₂ (IntOp.cmpi .eq) ?_ ?_
  · exact (bcast_bins_apply _ _ r col j).trans (cast_col_apply bins _ r col 0)
  · exact bcast_lane_apply lane _ r col j

/-! ## The payloads at an index -/

/-- A pixel of the tile: the channel sum divided by 3, times 255. -/
def tilePix (x : Vec Ideal S1x3x32x512 .f32) (r : Fin 32) (col : Fin 512) : EReal :=
  Ideal.div (∑ c : Fin 3, x (ix4 (0 : Fin 1) c r col)) (Ideal.ofBits .f32 w3) * Ideal.ofBits .f32 w255

theorem pay4_apply (x : Vec Ideal S1x3x32x512 .f32) (r : Fin 32) (col : Fin 512) :
    k0_pay4 (F := Ideal) x (ix2 r col) = binOf (tilePix x r col) := by
  unfold k0_pay4 binOf clip tilePix
  have e : multiReduction (F := Ideal) .add [0] S32x512 (shapeCast S3x32x512 x shapeCasts_S1x3x32x512_S3x32x512) 0x00000000#32
        reduces_S3x32x512_S32x512 (.inl rfl) rfl (ix2 r col) = ∑ c : Fin 3, x (ix4 (0 : Fin 1) c r col) :=
    (sum_chan_apply _ _ _ _ r col).trans (Finset.sum_congr rfl fun c _ => cast_tile_apply x _ c r col)
  exact congrArg (fun t => IntOp.minsi 255#32 (IntOp.maxsi 0#32 (Ideal.fptosi 32
    (Ideal.div t (Ideal.ofBits .f32 w3) * Ideal.ofBits .f32 w255)))) e

theorem pay5_apply (x : Vec Ideal S1x3x32x512 .f32) (v26 : Vec Ideal S1x1x128 .f32) (j : Fin 128) :
    k0_pay5 (F := Ideal) x v26 (ix3 (0 : Fin 1) (0 : Fin 1) j)
      = v26 (ix3 (0 : Fin 1) (0 : Fin 1) j) + ∑ r : Fin 32, ∑ col : Fin 512, ind (binOf (tilePix x r col)) (BitVec.ofNat 32 j.val) := by
  have e : k0_pay5 (F := Ideal) x v26
      = k0_pay1 (F := Ideal) (k0_pay4 x) (addi (iota .tc S1x1x128 32 [2] iota_S1x1x128_d2_w32) (broadcast S1x1x128 0#32)) v26 := rfl
  rw [e, chunk_apply]
  refine congrArg (v26 (ix3 (0 : Fin 1) (0 : Fin 1) j) + ·) ?_
  refine Finset.sum_congr rfl fun r _ => Finset.sum_congr rfl fun col _ => ?_
  refine congrArg₂ ind (pay4_apply x r col) ?_
  show IntOp.addi (iota .tc S1x1x128 32 [2] iota_S1x1x128_d2_w32 (ix3 (0 : Fin 1) (0 : Fin 1) j)) 0#32 = _
  rw [iota_lane_apply, addi_zero]

theorem pay1_apply (x : Vec Ideal S1x3x32x512 .f32) (v43 : Vec Ideal S1x1x128 .f32) (j : Fin 128) :
    k0_pay1 (F := Ideal) (k0_pay4 x) k0_pay6 v43 (ix3 (0 : Fin 1) (0 : Fin 1) j)
      = v43 (ix3 (0 : Fin 1) (0 : Fin 1) j) + ∑ r : Fin 32, ∑ col : Fin 512, ind (binOf (tilePix x r col)) (BitVec.ofNat 32 (j.val + 128)) := by
  rw [chunk_apply]
  refine congrArg (v43 (ix3 (0 : Fin 1) (0 : Fin 1) j) + ·) ?_
  refine Finset.sum_congr rfl fun r _ => Finset.sum_congr rfl fun col _ => ?_
  refine congrArg₂ ind (pay4_apply x r col) ?_
  show IntOp.addi (iota .tc S1x1x128 32 [2] iota_S1x1x128_d2_w32 (ix3 (0 : Fin 1) (0 : Fin 1) j)) 128#32 = _
  rw [iota_lane_apply, addi_128]

theorem pay3_apply (y : S1x1x256.Idx) : k0_pay3 (F := Ideal) y = (0 : EReal) := by
  unfold k0_pay3
  refine (congrFun (shapeCast_self _ _) y).trans ?_
  exact Ideal.ofBits_zero_f32

end Cert.KernelIdeal.KVal

end
-- ==== Proof.KInv.lean ====
/-
  The kernel's accumulator, point by point.

  The grid is 32 images × 16 tiles of 32 rows; point t = 16·b + h handles tile h of image b. The carried scratch is
  an accumulator of 256 bin counts. One run of the body adds, to every bin k, the number of pixels of the tile whose
  bin is k (a sum over the tile's 32 rows and 512 columns of zeros and ones); the first tile of an image first sets
  the accumulator to zero. So after point 16·b + h the accumulator holds, at bin k, the parts of tiles 0 … h of
  image b: by induction on the point, never by enumerating the grid.
-/
import proofs.«145347_j81037442941133_1_alg».proof.Proof.Gen.KernelIdeal.Frame
import proofs.«145347_j81037442941133_1_alg».proof.Proof.Spec
import proofs.«145347_j81037442941133_1_alg».proof.Proof.KStep
import proofs.«145347_j81037442941133_1_alg».proof.Proof.KPay
import Idealize.ShloMosaic.Lib.Pipeline.Value
import Idealize.ShloMosaic.Lib.Pipeline.FrameBody
import Idealize.ShloMosaic.Lib.ValueIdx
import Idealize.ShloMosaic.PureOps.Ideal.Laws

noncomputable section

namespace Cert.KernelIdeal.KVal

open Cert.KernelIdeal Cert.KernelIdeal.Gen Cert.Hist Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- A tile's contribution to a bin: over its 32 rows and 512 columns, the pixels whose bin it is. -/
def tileCnt (x : Vec Ideal S1x3x32x512 .f32) (k : BitVec 32) : EReal :=
  ∑ r : Fin 32, ∑ col : Fin 512, ind (binOf (tilePix x r col)) k

/-- One run of the body adds the tile's contribution to every bin of the accumulator. -/
theorem step_apply (x : Vec Ideal S1x3x32x512 .f32) (acc : Vec Ideal S1x1x256 .f32) (k : Fin 256) :
    step (F := Ideal) x acc (ix3 (0 : Fin 1) (0 : Fin 1) k) = acc (ix3 (0 : Fin 1) (0 : Fin 1) k) + tileCnt x (BitVec.ofNat 32 k.val) := by
  obtain ⟨kv, hkv⟩ := k
  by_cases hk : kv < 128
  · have e := step_lo (F := Ideal) x acc ⟨kv, hk⟩
    rw [pay5_apply, ld_lo] at e
    exact e
  · obtain ⟨j, rfl⟩ : ∃ j, kv = j + 128 := ⟨kv - 128, by omega⟩
    have e := step_hi (F := Ideal) x acc ⟨j, by omega⟩
    rw [pay1_apply, ld_hi] at e
    exact e

/-- The image as the region finds it, and the input block of a point, at their literal types. -/
abbrev img (c : Dev nD) : Img := V m c main_arg0
abbrev xblk (c : Dev nD) (t : Fin cfg0.N) : Vec Ideal S1x3x32x512 .f32 := iblk m c 0 t

/-- The input window's block index at a point: image t / 16, tile t % 16. -/
theorem in_index : ∀ t : Fin cfg0.N, win0_0.index t 0 = t.val / 16 ∧ win0_0.index t 1 = 0 ∧ win0_0.index t 2 = t.val % 16 ∧ win0_0.index t 3 = 0 :=
  (by decide +kernel : ∀ t : Fin grid0.N, win0_0.index t 0 = t.val / 16 ∧ win0_0.index t 1 = 0 ∧ win0_0.index t 2 = t.val % 16 ∧ win0_0.index t 3 = 0)

/-- The block of point t holds rows 32·(t % 16) … of image t / 16. -/
theorem xblk_apply (c : Dev nD) (t : Fin cfg0.N) (ch : Fin 3) (r : Fin 32) (col : Fin 512) :
    xblk m c t (ix4 (0 : Fin 1) ch r col) = img m c (ix4 (batchOf (t.val / 16)) ch (rowOf (t.val % 16) r) col) := by
  have hN : t.val < 512 := lt_of_lt_of_eq t.isLt (show cfg0.N = 512 from N_0)
  obtain ⟨i0, i1, i2, i3⟩ := in_index t
  show iblk m c 0 t _ = V m c main_arg0 _
  unfold iblk
  rw [View.read_apply]
  show V m c main_arg0 _ = V m c main_arg0 _
  congr 1
  funext a
  apply Fin.ext
  have hr := r.isLt
  match a with
  | ⟨0, _⟩ => show win0_0.index t 0 * 1 + 1 * 0 = (t.val / 16) % 32; rw [i0]; omega
  | ⟨1, _⟩ => show win0_0.index t 1 * 3 + 1 * ch.val = ch.val; rw [i1]; omega
  | ⟨2, _⟩ => show win0_0.index t 2 * 32 + 1 * r.val = (32 * (t.val % 16) + r.val) % 512; rw [i2]; omega
  | ⟨3, _⟩ => show win0_0.index t 3 * 512 + 1 * col.val = col.val; rw [i3]; omega

theorem tilePix_xblk (c : Dev nD) (t : Fin cfg0.N) (r : Fin 32) (col : Fin 512) :
    tilePix (xblk m c t) r col = pixK (img m c) (batchOf (t.val / 16)) (rowOf (t.val % 16) r) col := by
  unfold tilePix pixK
  simp only [xblk_apply]

theorem tileCnt_xblk (c : Dev nD) (t : Fin cfg0.N) (k : BitVec 32) :
    tileCnt (xblk m c t) k = partK (img m c) (t.val / 16) (t.val % 16) k := by
  unfold tileCnt partK
  simp only [tilePix_xblk]

/-- The accumulator after point n, at its literal type. -/
abbrev accAt (c : Dev nD) (n : ℕ) (hn : n < cfg0.N) : Vec Ideal S1x1x256 .f32 := (outsAt0 m c n hn).2

/-- THE INVARIANT: after point n = 16·b + h the accumulator holds, at bin k, tiles 0 … h of image b. -/
theorem accAt_eq (c : Dev nD) : ∀ (n : ℕ) (hn : n < cfg0.N) (k : Fin 256),
    accAt m c n hn (ix3 (0 : Fin 1) (0 : Fin 1) k)
      = ∑ h ∈ Finset.range (n % 16 + 1), partK (img m c) (n / 16) h (BitVec.ofNat 32 k.val)
  | 0, hn, k => by
    show (outsAt0 m c (⟨0, hn⟩ : Fin cfg0.N).val (⟨0, hn⟩ : Fin cfg0.N).isLt).2 _ = _
    rw [outsAt0_A m c ⟨0, hn⟩ rfl (by show ¬ (0 % 16 = 15); decide)]
    dsimp only
    rw [sout_A]
    show step (F := Ideal) (xblk m c ⟨0, hn⟩) (k0_pay3 (F := Ideal)) _ = _
    rw [step_apply, pay3_apply, zero_add, tileCnt_xblk]
    simp
  | n + 1, hn, k => by
    have hN : n + 1 < 512 := lt_of_lt_of_eq hn (show cfg0.N = 512 from N_0)
    by_cases h0 : (n + 1) % 16 = 0
    · have h1 : ¬ (n + 1) % 16 = 15 := by omega
      show (outsAt0 m c (⟨n + 1, hn⟩ : Fin cfg0.N).val (⟨n + 1, hn⟩ : Fin cfg0.N).isLt).2 _ = _
      rw [outsAt0_A m c ⟨n + 1, hn⟩ h0 h1]
      dsimp only
      rw [sout_A]
      show step (F := Ideal) (xblk m c ⟨n + 1, hn⟩) (k0_pay3 (F := Ideal)) _ = _
      rw [step_apply, pay3_apply, zero_add, tileCnt_xblk, h0]
      simp
    · have ih := accAt_eq c n (Nat.lt_of_succ_lt hn) k
      have e1 : (n + 1) / 16 = n / 16 := by omega
      have e2 : (n + 1) % 16 = n % 16 + 1 := by omega
      by_cases h1 : (n + 1) % 16 = 15
      · show (outsAt0 m c (⟨n + 1, hn⟩ : Fin cfg0.N).val (⟨n + 1, hn⟩ : Fin cfg0.N).isLt).2 _ = _
        rw [outsAt0_C m c ⟨n + 1, hn⟩ h0 h1]
        dsimp only
        rw [sout_C]
        show step (F := Ideal) (xblk m c ⟨n + 1, hn⟩) (accAt m c n _) _ = _
        rw [step_apply, ih, tileCnt_xblk]
        show _ + partK _ ((n + 1) / 16) ((n + 1) % 16) _ = _
        rw [e1, e2, Finset.sum_range_succ _ (n % 16 + 1)]
      · show (outsAt0 m c (⟨n + 1, hn⟩ : Fin cfg0.N).val (⟨n + 1, hn⟩ : Fin cfg0.N).isLt).2 _ = _
        rw [outsAt0_B m c ⟨n + 1, hn⟩ h0 h1]
        dsimp only
        rw [sout_B]
        show step (F := Ideal) (xblk m c ⟨n + 1, hn⟩) (accAt m c n _) _ = _
        rw [step_apply, ih, tileCnt_xblk]
        show _ + partK _ ((n + 1) / 16) ((n + 1) % 16) _ = _
        rw [e1, e2, Finset.sum_range_succ _ (n % 16 + 1)]

end Cert.KernelIdeal.KVal

end
-- ==== Proof.KOut.lean ====
/-
  The kernel's result.

  The output window's block of image b is written back once, after the image's last tile (point 16·b + 15), and then
  holds the accumulator: at bin k the sum of all 16 tiles' parts, the count of bin k in image b. The 32 blocks tile
  the [32,1,256] result array, so the array ends holding the counts. The host operations after the call read it as
  [32,256] and compute the loss from it.
-/
import proofs.«145347_j81037442941133_1_alg».proof.Proof.KInv
import Idealize.ShloMosaic.Lib.StableHlo.Run

noncomputable section

namespace Cert.KernelIdeal.KVal

open Cert.KernelIdeal Cert.KernelIdeal.Gen Cert.Hist Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The array the kernel leaves: at (b, 0, k) the count of bin k in image b. -/
def Kout (X : Img) : Vec Ideal S32x1x256 .f32 := fun i => cntK X (i 0).val (BitVec.ofNat 32 (i 2).val)

/-- The output window's block index at a point: image t / 16. -/
theorem out_index : ∀ t : Fin cfg0.N, win0_1.index t 0 = t.val / 16 ∧ win0_1.index t 1 = 0 ∧ win0_1.index t 2 = 0 :=
  (by decide +kernel : ∀ t : Fin grid0.N, win0_1.index t 0 = t.val / 16 ∧ win0_1.index t 1 = 0 ∧ win0_1.index t 2 = 0)

/-- At an image's last tile the output block holds the image's counts. -/
theorem outAt_eq (c : Dev nD) (t : Fin cfg0.N) (h15 : t.val % 16 = 15) (k : Fin 256) :
    (outsAt0 m c t.val t.isLt).1 (ix3 (0 : Fin 1) (0 : Fin 1) k) = cntK (img m c) (t.val / 16) (BitVec.ofNat 32 k.val) := by
  have hN : t.val < 512 := lt_of_lt_of_eq t.isLt (show cfg0.N = 512 from N_0)
  have h0 : ¬ t.val % 16 = 0 := by omega
  rw [outsAt0_C m c t h0 h15]
  dsimp only
  rw [out_C]
  show step (F := Ideal) (xblk m c t) (accAt m c (t.val - 1) _) _ = _
  rw [step_apply, accAt_eq, tileCnt_xblk]
  have e1 : (t.val - 1) / 16 = t.val / 16 := by omega
  have e2 : (t.val - 1) % 16 + 1 = 15 := by omega
  rw [e1, e2, h15]
  unfold cntK
  rw [Finset.sum_range_succ _ 15]

theorem flushed_eq (c : Dev nD) (t : Fin cfg0.N) (hf : (cfg0.win 1).flush t = true) :
    (dats m 0 c).flushed 1 t = ((cfg0.win 1).blk t).view.read (Elt Ideal) (Kout (img m c)) := by
  have h15 : t.val % 16 = 15 := (flush0_1 t).mp hf
  have hN : t.val < 512 := lt_of_lt_of_eq t.isLt (show cfg0.N = 512 from N_0)
  obtain ⟨o0, o1, o2⟩ := out_index t
  funext y
  show (cfg0.win 1).cut (grid0.coords t) ((dats m 0 c).after 1 t) y = _
  rw [after0_1, View.read_apply]
  have hy0 : (y 0).val < 1 := (y 0).isLt
  have hy1 : (y 1).val < 1 := (y 1).isLt
  have hy2 : (y 2).val < 256 := (y 2).isLt
  have hy : (cfg0.win 1).xinj (grid0.coords t) y = ix3 (0 : Fin 1) (0 : Fin 1) (⟨(y 2).val, hy2⟩ : Fin 256) :=
    funext fun a => Fin.ext (by
      match a with
      | ⟨0, _⟩ => show (y 0).val = 0; omega
      | ⟨1, _⟩ => show (y 1).val = 0; omega
      | ⟨2, _⟩ => rfl)
  show (outsAt0 m c t.val t.isLt).1 ((cfg0.win 1).xinj (grid0.coords t) y) = _
  rw [hy, outAt_eq m c t h15]
  unfold Kout
  congr 1
  · show t.val / 16 = win0_1.index t 0 * 1 + 1 * (y 0).val
    rw [o0]; omega
  · congr 1
    show (y 2).val = win0_1.index t 2 * 256 + 1 * (y 2).val
    rw [o2]; omega

theorem final (c : Dev nD) : (dats m 0 c).arrAt 1 cfg0.N = Kout (img m c) :=
  (dats m 0 c).arrAt_eq_of_cover 1 (Kout (img m c)) (flushed_eq m c) fun i => by
    have hi0 : (i 0).val < 32 := (i 0).isLt
    have hi1 : (i 1).val < 1 := (i 1).isLt
    have hi2 : (i 2).val < 256 := (i 2).isLt
    have hlt : 16 * (i 0).val + 15 < cfg0.N := by rw [show cfg0.N = 512 from N_0]; omega
    refine ⟨⟨16 * (i 0).val + 15, hlt⟩, (flush0_1 _).mpr (by show (16 * (i 0).val + 15) % 16 = 15; omega), ?_⟩
    obtain ⟨o0, o1, o2⟩ := out_index ⟨16 * (i 0).val + 15, hlt⟩
    show i ∈ ((View.whole main_v0).slice (win0_1.rect ⟨16 * (i 0).val + 15, hlt⟩)).set
    rw [View.set_slice_whole, Rect.mem_set_unit]
    intro a
    match a with
    | ⟨0, _⟩ =>
      show win0_1.index ⟨16 * (i 0).val + 15, hlt⟩ 0 * 1 ≤ (i 0).val ∧ (i 0).val < win0_1.index ⟨16 * (i 0).val + 15, hlt⟩ 0 * 1 + 1
      rw [o0]; show (16 * (i 0).val + 15) / 16 * 1 ≤ (i 0).val ∧ (i 0).val < (16 * (i 0).val + 15) / 16 * 1 + 1; omega
    | ⟨1, _⟩ =>
      show win0_1.index ⟨16 * (i 0).val + 15, hlt⟩ 1 * 1 ≤ (i 1).val ∧ (i 1).val < win0_1.index ⟨16 * (i 0).val + 15, hlt⟩ 1 * 1 + 1
      rw [o1]; omega
    | ⟨2, _⟩ =>
      show win0_1.index ⟨16 * (i 0).val + 15, hlt⟩ 2 * 256 ≤ (i 2).val ∧ (i 2).val < win0_1.index ⟨16 * (i 0).val + 15, hlt⟩ 2 * 256 + 256
      rw [o2]; omega

/-- From the [32,256] counts to the loss: bin 0 of every image set to 262144, one added to every bin, divided by
    262400 to a probability p, then the sum over bins and images of p · log p, divided by 32. -/
def probOf (cnt : FVec Ideal S32x256 .f32) : FVec Ideal S32x256 .f32 :=
  Host.divf
    (addf
      (Host.scatter scatter_S32x256_S1_S32_0_1_1_0 (fun _ b => b) cnt
        (broadcastInDim S1 ![] bcast_S_S1 (constantI S_ 32 0#32))
        (broadcastInDim S32 ![] bcast_S_S32 (constant (F := Ideal) S_ .f32 0x48800000#32)))
      (broadcastInDim S32x256 ![] bcast_S_S32x256 (constant (F := Ideal) S_ .f32 0x3F800000#32)))
    (broadcastInDim S32x256 ![] bcast_S_S32x256 (constant (F := Ideal) S_ .f32 0x48802000#32))

def lossOf (cnt : FVec Ideal S32x256 .f32) : FVec Ideal S_ .f32 :=
  Host.divf
    (Host.reduceAdd
      (Host.reduceAdd (mulf (probOf cnt) (Host.log (probOf cnt))) (constant (F := Ideal) S_ .f32 0x00000000#32) reducesTo_S32x256_S32_d1 h_S_)
      (constant (F := Ideal) S_ .f32 0x00000000#32) reducesTo_S32_S_d0 h_S_)
    (constant (F := Ideal) S_ .f32 0x42000000#32)

/-- The kernel's run: the result is the loss of the counts (the [32,1,256] array read as [32,256]); the image is kept. -/
theorem run : θ_run defs (onTc (τ := τ) (main (F := Ideal))) ⟨m, fun _ => 0, ρ⟩ fun r => ∀ c : Dev nD,
      r.2.mem ((c.tc : Thread nD τ).loc main_v13) = lossOf (shapeCast S32x256 (Kout (img m c)) shapeCasts_S32x1x256_S32x256)
      ∧ r.2.mem ((c.tc : Thread nD τ).loc main_arg0) = m ((c.tc : Thread nD τ).loc main_arg0) := by
  refine (θ_run defs _ _).mono (fun _ h c => ⟨((h c).2 main_v13 (by decide)).trans ?_, ((h c).1 0).trans ((dats m 0 c).arrAt_in 0 rfl _)⟩) (run_main m ρ)
  unfold Pipeline.afterTail₀
  show StableHlo.after hostOps1 _ (Proc.devRef .tc main_v13) = _
  after_results
  show lossOf _ = lossOf _
  refine congrArg lossOf (funext fun i => ?_)
  show shapeCast S32x256 (Pipeline.withArrays (cfgs 0).spec c (V0 m c) (fun w => (dats m 0 c).arrAt w (cfgs 0).N) (Proc.devRef .tc main_v0)) shapeCasts_S32x1x256_S32x256 i = _
  exact congrArg (fun A : Vec Ideal S32x1x256 .f32 => shapeCast S32x256 A shapeCasts_S32x1x256_S32x256 i)
    ((Pipeline.withArrays_arr spec0 launch0.win.arr_inj c _ _ 1).trans (final m c))

end Cert.KernelIdeal.KVal

end
-- ==== Proof.RCount.lean ====
/-
  The reference's histogram, read at an index.

  The reference computes each pixel's bin, flattens the 512 × 512 pixels of an image to 262144, and adds a one
  per pixel into a zero array of 32 × 256 counts through an accumulating scatter whose index pair for pixel
  (b, p) is (b, bin of (b, p)). Read at the extended reals, element (b, k) of the result is zero plus the sum of
  the ones of the pixels whose index pair is (b, k): the number of pixels of image b whose bin is k.
-/
import proofs.«145347_j81037442941133_1_alg».proof.Proof.Gen.ReferenceIdeal.Read
import proofs.«145347_j81037442941133_1_alg».proof.Proof.Spec
import Idealize.ShloMosaic.PureOps.Ideal.Laws
import Idealize.ShloMosaic.Lib.ValueIdx
import Idealize.ShloMosaic.Lib.Pipeline.Value
import Mathlib.Algebra.BigOperators.Fin

noncomputable section

namespace Cert.ReferenceIdeal.RVal

open Cert.ReferenceIdeal Cert.ReferenceIdeal.Gen Cert.Hist Idealize.ShloMosaic Idealize.ShloMosaic.ValueIdx

/-! ## Words -/

/-- The word 0x3F800000 is the extended real one. -/
theorem ofBits_one_f32 : Ideal.ofBits .f32 0x3F800000#32 = 1 := by
  simp [Ideal.ofBits, Ideal.ieee]
  rw [← EReal.coe_mul, ← EReal.coe_one]
  congr 1
  norm_num

/-- A signed maximum with 0 followed by a signed minimum with 255 lands in [0, 255]. -/
theorem clip_range (v : BitVec 32) : 0 ≤ (clip v).toInt ∧ (clip v).toInt ≤ 255 := by
  unfold clip IntOp.minsi IntOp.maxsi
  have h0 : (0#32 : BitVec 32).toInt = 0 := by decide
  have h255 : (255#32 : BitVec 32).toInt = 255 := by decide
  by_cases h1 : v.slt 0#32 = true
  · rw [if_pos h1]
    have : (255#32 : BitVec 32).slt 0#32 = false := by decide
    rw [this]; simp [h0]
  · rw [if_neg h1]
    have h1' : ¬ v.toInt < 0 := by
      intro hh; apply h1; rw [BitVec.slt_iff_toInt_lt, h0]; exact hh
    by_cases h2 : (255#32 : BitVec 32).slt v = true
    · rw [if_pos h2, h255]; omega
    · rw [if_neg h2]
      have h2' : ¬ 255 < v.toInt := by
        intro hh; apply h2; rw [BitVec.slt_iff_toInt_lt, h255]; exact hh
      omega

/-- A word that is not negative as a signed integer passes the negative-index wrap unchanged. -/
theorem wrap_nonneg (c m : BitVec 32) (h : 0 ≤ c.toInt) :
    Scalar.select (IntOp.cmpi .slt c 0#32) (IntOp.addi c m) c = c := by
  have h0 : (0#32 : BitVec 32).toInt = 0 := by decide
  have : c.slt 0#32 = false := by
    rw [Bool.eq_false_iff]; intro hh; rw [BitVec.slt_iff_toInt_lt, h0] at hh; omega
  unfold IntOp.cmpi
  simp only [this]
  rfl

/-- A natural below 2^31 read back signed off its 32-bit word. -/
theorem toInt_ofNat_small (n : Nat) (h : n < 2147483648) : (BitVec.ofNat 32 n).toInt = (n : Int) := by
  rw [BitVec.toInt_ofNat']
  apply Int.bmod_eq_of_le <;> omega

/-- A 32-bit word reads signed as the small natural n exactly when it is n's word. -/
theorem toInt_eq_iff (c : BitVec 32) (n : Nat) (h : n < 2147483648) :
    c.toInt = (n : Int) ↔ c = BitVec.ofNat 32 n := by
  constructor
  · intro e
    have := BitVec.ofInt_toInt (x := c)
    rw [e] at this
    rw [← this]; simp
  · rintro rfl; exact toInt_ofNat_small n h

/-! ## The scatter's dimension numbers: where an update lands -/

/-- The histogram scatter's dimension numbers: both operand axes are indexed, no window axis. -/
abbrev dS : ScatterDims S32x256 S32x262144x2 S32x262144 := scatter_S32x256_S32x262144x2_S32x262144_n_01_01_2

/-- No operand axis is a window axis: the window coordinate is zero. -/
theorem dS_window (j : S32x262144.Idx) (a : Fin 2) : dS.window j a = 0 := by
  unfold ScatterDims.window
  rw [dif_neg]
  decide +revert

/-- Both operand axes are named by the index vector. -/
theorem dS_mem (a : Fin 2) : a ∈ dS.scatterDimsToOperandDims := by decide +revert

/-- Component a of update (b', p)'s start index is read at (b', p, a). -/
theorem dS_siIdx (j : S32x262144.Idx) (a : Fin 2) :
    dS.siIdx j ⟨dS.scatterDimsToOperandDims.idxOf a, List.idxOf_lt_length_iff.2 (dS_mem a)⟩
      = ix3 (n0 := 32) (n1 := 262144) (n2 := 2) (j 0) (j 1) a := by
  funext b
  match a, b with
  | ⟨0, _⟩, ⟨0, _⟩ => exact Fin.ext rfl
  | ⟨0, _⟩, ⟨1, _⟩ => exact Fin.ext rfl
  | ⟨0, _⟩, ⟨2, _⟩ => exact Fin.ext rfl
  | ⟨1, _⟩, ⟨0, _⟩ => exact Fin.ext rfl
  | ⟨1, _⟩, ⟨1, _⟩ => exact Fin.ext rfl
  | ⟨1, _⟩, ⟨2, _⟩ => exact Fin.ext rfl

/-- The start on operand axis a is that component, read signed. -/
theorem dS_start (j : S32x262144.Idx) (idx : IVec S32x262144x2 32) (a : Fin 2) :
    dS.start j idx a = (idx (ix3 (n0 := 32) (n1 := 262144) (n2 := 2) (j 0) (j 1) a)).toInt := by
  unfold ScatterDims.start
  rw [dif_pos (dS_mem a), dS_siIdx]

/-- Start plus window coordinate on operand axis a: that component, read signed. -/
theorem dS_sw (j : S32x262144.Idx) (idx : IVec S32x262144x2 32) (a : Fin 2) :
    dS.start j idx a + dS.window j a = (idx (ix3 (n0 := 32) (n1 := 262144) (n2 := 2) (j 0) (j 1) a)).toInt := by
  rw [dS_start, dS_window]; simp

/-- Update (b', p) lands on element (b, k) exactly when its two index components, read signed, are b and k. -/
theorem dS_resultIdx (j : S32x262144.Idx) (idx : IVec S32x262144x2 32) (b : Fin 32) (k : Fin 256) :
    dS.resultIdx? j idx = some (ix2 b k) ↔
      (idx (ix3 (n0 := 32) (n1 := 262144) (n2 := 2) (j 0) (j 1) 0)).toInt = (b.val : Int) ∧
      (idx (ix3 (n0 := 32) (n1 := 262144) (n2 := 2) (j 0) (j 1) 1)).toInt = (k.val : Int) := by
  have s0 := dS_sw j idx 0
  have s1 := dS_sw j idx 1
  unfold ScatterDims.resultIdx?
  split
  · rename_i h
    rw [Option.some.injEq]
    constructor
    · intro e
      have e0 := congrArg (fun f => (f 0).val) e
      have e1 := congrArg (fun f => (f 1).val) e
      have h0 := (h 0).1
      have h1 := (h 1).1
      change (dS.start j idx 0 + dS.window j 0).toNat = b.val at e0
      change (dS.start j idx 1 + dS.window j 1).toNat = k.val at e1
      rw [← s0, ← s1]
      omega
    · rintro ⟨e0, e1⟩
      funext a
      match a with
      | ⟨0, _⟩ =>
        apply Fin.ext
        change (dS.start j idx 0 + dS.window j 0).toNat = b.val
        rw [s0, e0]; simp
      | ⟨1, _⟩ =>
        apply Fin.ext
        change (dS.start j idx 1 + dS.window j 1).toNat = k.val
        rw [s1, e1]; simp
  · rename_i h
    constructor
    · intro e; exact absurd e (by simp)
    · rintro ⟨e0, e1⟩
      exfalso; apply h
      intro a
      match a with
      | ⟨0, _⟩ =>
        change 0 ≤ dS.start j idx 0 + dS.window j 0 ∧ dS.start j idx 0 + dS.window j 0 < (32 : Nat)
        rw [s0, e0]; have := b.isLt; omega
      | ⟨1, _⟩ =>
        change 0 ≤ dS.start j idx 1 + dS.window j 1 ∧ dS.start j idx 1 + dS.window j 1 < (256 : Nat)
        rw [s1, e1]; have := k.isLt; omega

/-! ## The reference's stages at an index -/

variable (x : (⟨S32x3x512x512, .f32⟩ : BufTy).Contents (Elt Ideal))

/-- The reference's pixel value. -/
theorem pix_ref (b : Fin 32) (row col : Fin 512) :
    Read.val_main_v4 (F := Ideal) x (ix3 b row col) = pixR x b row col := by
  have hidx : ∀ c : Fin 3, Read.idx_main_v2 (ix3 b row col) c = ix4 b c row col := by
    intro c; funext a
    match a with
    | ⟨0, _⟩ => rfl
    | ⟨1, _⟩ => rfl
    | ⟨2, _⟩ => rfl
    | ⟨3, _⟩ => rfl
  rw [Read.val_main_v4_apply, Read.val_main_v2_apply, Read.val_main_v3_apply, Read.val_main_cst_1_apply,
    Read.val_main_cst_0_apply]
  simp only [Read.val_main_v1_apply, Read.val_main_v0_apply, Read.val_main_cst_apply, hidx,
    Ideal.hostDivf_def, Ideal.mulf_def, Ideal.ofBits_def]
  rfl

/-- The reference's bin of a pixel. -/
theorem bin_ref3 (b : Fin 32) (row col : Fin 512) :
    Read.val_main_v6 (F := Ideal) x (ix3 b row col) = binOf (pixR x b row col) := by
  rw [Read.val_main_v6_apply, Read.val_main_call0_v4_apply, Read.val_main_call0_v3_apply, Read.val_main_c_2_apply,
    Read.val_main_call0_v2_apply, Read.val_main_call0_v1_apply, Read.val_main_call0_v0_apply, Read.val_main_c_apply,
    Read.val_main_v5_apply, pix_ref]
  rfl

/-- The flattened pixel p of image b is the pixel (p / 512, p % 512). -/
theorem bin_ref (b : Fin 32) (p : Fin 262144) :
    Read.val_main_v7 (F := Ideal) x (ix2 b p)
      = binOf (pixR x b ⟨p.val / 512, by have := p.isLt; omega⟩ ⟨p.val % 512, Nat.mod_lt _ (by norm_num)⟩) := by
  have hidx : Read.idx_main_v7 (ix2 b p)
      = ix3 b (⟨p.val / 512, by have := p.isLt; omega⟩ : Fin 512) (⟨p.val % 512, Nat.mod_lt _ (by norm_num)⟩ : Fin 512) := by
    have hb := b.isLt
    have hp := p.isLt
    funext a
    match a with
    | ⟨0, _⟩ => apply Fin.ext; show (b.val * 262144 + p.val) / 262144 = b.val; omega
    | ⟨1, _⟩ => apply Fin.ext; show (b.val * 262144 + p.val) / 512 % 512 = p.val / 512; omega
    | ⟨2, _⟩ => apply Fin.ext; show (b.val * 262144 + p.val) % 512 = p.val % 512; omega
  rw [Read.val_main_v7_apply, hidx, bin_ref3]

/-- The bin passes the negative-index wrap unchanged. -/
theorem bin_wrap (b : Fin 32) (p : Fin 262144) :
    Read.val_main_v20 (F := Ideal) x (ix2 b p) = Read.val_main_v7 (F := Ideal) x (ix2 b p) := by
  rw [Read.val_main_v20_apply, Read.val_main_v17_apply, Read.val_main_v19_apply, Read.val_main_v16_apply,
    Read.val_main_c_6_apply]
  apply wrap_nonneg
  rw [bin_ref]
  exact (clip_range _).1

/-- The batch number, as a word. -/
theorem batch_ref (b : Fin 32) (p : Fin 262144) :
    Read.val_main_v22 (F := Ideal) (ix3 b p (0 : Fin 1)) = BitVec.ofNat 32 b.val := by
  rw [Read.val_main_v22_apply, Read.val_main_v21_apply, Read.val_main_v15_apply, Read.val_main_v12_apply,
    Read.val_main_v14_apply, Read.val_main_v11_apply, Read.val_main_c_4_apply, Read.val_main_v10_apply,
    Read.val_main_v9_apply]
  have hb := b.isLt
  rw [wrap_nonneg _ _ (by rw [toInt_ofNat_small _ (by show b.val < _; omega)]; omega)]

/-- Component 0 of pixel (b, p)'s index pair is the batch number. -/
theorem idx_ref0 (b : Fin 32) (p : Fin 262144) :
    Read.val_main_v24 (F := Ideal) x (ix3 b p (0 : Fin 2)) = BitVec.ofNat 32 b.val := by
  unfold Read.val_main_v24
  rw [concatenate_pair_apply_left (t := S32x262144x2) (s₁ := S32x262144x1) (s₂ := S32x262144x1)
    (2 : Fin S32x262144x2.rank) _ _ _ _ rfl (ix3 b p (0 : Fin 1))
    (fun c => by match c with | ⟨0, _⟩ => rfl | ⟨1, _⟩ => rfl | ⟨2, _⟩ => rfl)]
  exact batch_ref b p

/-- Component 1 of pixel (b, p)'s index pair is its bin. -/
theorem idx_ref1 (b : Fin 32) (p : Fin 262144) :
    Read.val_main_v24 (F := Ideal) x (ix3 b p (1 : Fin 2))
      = binOf (pixR x b ⟨p.val / 512, by have := p.isLt; omega⟩ ⟨p.val % 512, Nat.mod_lt _ (by norm_num)⟩) := by
  unfold Read.val_main_v24
  rw [concatenate_pair_apply_right (t := S32x262144x2) (s₁ := S32x262144x1) (s₂ := S32x262144x1)
    (2 : Fin S32x262144x2.rank) _ _ _ _ rfl rfl (ix3 b p (0 : Fin 1))
    (fun c hc => by
      match c with
      | ⟨0, _⟩ => rfl
      | ⟨1, _⟩ => rfl
      | ⟨2, _⟩ => exact absurd rfl hc)
    rfl]
  have hidx : Read.idx_main_v23 (ix3 b p (0 : Fin 1)) = ix2 b p := by
    funext a
    match a with
    | ⟨0, _⟩ => rfl
    | ⟨1, _⟩ => rfl
  rw [Read.val_main_v23_apply, hidx, bin_wrap, bin_ref]

/-- Pixel (b', p)'s one lands on count (b, k) exactly when b' is b and the pixel's bin is k. -/
theorem lands_iff (b' b : Fin 32) (p : Fin 262144) (k : Fin 256) :
    dS.resultIdx? (ix2 b' p) (Read.val_main_v24 (F := Ideal) x) = some (ix2 b k) ↔
      b' = b ∧ binOf (pixR x b' ⟨p.val / 512, by have := p.isLt; omega⟩ ⟨p.val % 512, Nat.mod_lt _ (by norm_num)⟩)
        = BitVec.ofNat 32 k.val := by
  rw [dS_resultIdx]
  change (Read.val_main_v24 (F := Ideal) x (ix3 b' p (0 : Fin 2))).toInt = (b.val : Int) ∧
    (Read.val_main_v24 (F := Ideal) x (ix3 b' p (1 : Fin 2))).toInt = (k.val : Int) ↔ _
  have hb' := b'.isLt
  have hk := k.isLt
  rw [idx_ref0, idx_ref1, toInt_ofNat_small _ (by omega), toInt_eq_iff _ _ (by omega)]
  constructor
  · rintro ⟨h1, h2⟩; exact ⟨Fin.ext (by omega), h2⟩
  · rintro ⟨h1, h2⟩; exact ⟨by rw [h1], h2⟩

/-- The reference's scatter at (b, k) is the count of image b's pixels whose bin is k. -/
theorem counts_ref (x : (⟨S32x3x512x512, .f32⟩ : BufTy).Contents (Elt Ideal)) (b : Fin 32) (k : Fin 256) :
    Read.val_main_v26 (F := Ideal) x (ix2 b k) = cntR x b (BitVec.ofNat 32 k.val) := by
  unfold Read.val_main_v26 Host.scatterAdd
  rw [Ideal.hostScatterAdd_def]
  unfold Ideal.hostScatterAdd
  rw [Read.val_main_v8_apply, Read.val_main_cst_3_apply, Ideal.ofBits_def, Ideal.ofBits_zero_f32, zero_add,
    Finset.sum_filter]
  simp only [Read.val_main_v25_apply, Read.val_main_cst_8_apply, Ideal.ofBits_def, ofBits_one_f32]
  rw [sum_idx2, Finset.sum_eq_single b]
  · unfold cntR ind
    refine Finset.sum_congr rfl fun p _ => ?_
    refine if_congr ?_ rfl rfl
    rw [lands_iff]
    exact ⟨fun h => h.2, fun h => ⟨rfl, h⟩⟩
  · intro b' _ hne
    refine Finset.sum_eq_zero fun p _ => ?_
    rw [if_neg]
    rw [lands_iff]
    exact fun h => hne h.1
  · intro h; exact absurd (Finset.mem_univ b) h

end Cert.ReferenceIdeal.RVal
end
-- ==== Proof.lean ====
/-
  The histogram-entropy loss: a Pallas kernel against its jnp reference, over the extended reals.

  Both programs bin every pixel of x : [32, 3, 512, 512] — the channel mean times 255, truncated and clamped to
  [0, 255] —, count the pixels of each of the 256 bins per image, overwrite bin 0 by 512·512, add one, divide by
  512·512 + 256 to a probability p, and return the mean over the images of the sum over the bins of p · log p.
  They differ in how they count. The kernel walks each image in 16 tiles of 32 rows and adds to an accumulator, for
  each bin, the number of the tile's pixels in it (a comparison with the bin number, summed over rows and columns);
  the reference scatters a one per pixel into the bin's slot. And the kernel takes mean(x)·255 where the reference
  takes mean(x·255): the same real number for finite inputs, so the same bin.

  The proof: the accumulator's contents point by point (an induction over the grid: KInv), hence the kernel's
  result array (KOut); the reference's scatter read at an index as a count (RCount); the two counts are one finite
  sum re-indexed, on finite inputs (SpecLaws, Finite); the rest of both programs is one function of the counts.
  The three frames are the generated ones (the reference's: its generated run with the result dropped), and the
  kernel's idealization rewrote nothing.
-/
import proofs.«145347_j81037442941133_1_alg».proof.Defs
import proofs.«145347_j81037442941133_1_alg».proof.Proof.Gen.Kernel
import proofs.«145347_j81037442941133_1_alg».proof.Proof.Gen.Kernel.Skeleton
import proofs.«145347_j81037442941133_1_alg».proof.Proof.Gen.Kernel.Launch
import proofs.«145347_j81037442941133_1_alg».proof.Proof.Gen.Kernel.Points
import proofs.«145347_j81037442941133_1_alg».proof.Proof.Gen.Kernel.Frame
import proofs.«145347_j81037442941133_1_alg».proof.Proof.Gen.KernelIdeal
import proofs.«145347_j81037442941133_1_alg».proof.Proof.Gen.KernelIdeal.Skeleton
import proofs.«145347_j81037442941133_1_alg».proof.Proof.Gen.KernelIdeal.Launch
import proofs.«145347_j81037442941133_1_alg».proof.Proof.Gen.KernelIdeal.Points
import proofs.«145347_j81037442941133_1_alg».proof.Proof.Gen.KernelIdeal.Frame
import proofs.«145347_j81037442941133_1_alg».proof.Proof.Gen.ReferenceIdeal
import proofs.«145347_j81037442941133_1_alg».proof.Proof.Gen.Pre_finite_inputs
import proofs.«145347_j81037442941133_1_alg».proof.Proof.Gen.ReferenceIdeal.Run
import proofs.«145347_j81037442941133_1_alg».proof.Proof.Gen.ReferenceIdeal.Read
import proofs.«145347_j81037442941133_1_alg».proof.Proof.SpecLaws
import proofs.«145347_j81037442941133_1_alg».proof.Proof.Finite
import proofs.«145347_j81037442941133_1_alg».proof.Proof.KOut
import proofs.«145347_j81037442941133_1_alg».proof.Proof.RCount
import Idealize.ShloMosaic.Adequacy
import Idealize.ShloMosaic.Init

noncomputable section

namespace Cert.Proof.HistClaims

open Idealize.ShloMosaic Idealize.ShloMosaic.TcCoe Idealize.SL.Sem Idealize.ShloMosaic.ValueIdx Cert.Hist

/-- After its counts the reference is the same function as the kernel after its own: the same operations, in order. -/
theorem ref_loss (x : (⟨Cert.ReferenceIdeal.S32x3x512x512, .f32⟩ : BufTy).Contents (Elt Ideal)) :
    Cert.ReferenceIdeal.Read.val_main_v38 (F := Ideal) x
      = Cert.KernelIdeal.KVal.lossOf (Cert.ReferenceIdeal.Read.val_main_v26 (F := Ideal) x) := rfl

/-- On a finite image the kernel's count array, read as [32,256], is the reference's scatter. -/
theorem counts_eq (X : Img) (hX : ∀ i, ∃ r : ℝ, X i = (r : EReal)) :
    shapeCast Cert.KernelIdeal.S32x256 (Cert.KernelIdeal.KVal.Kout X) Cert.KernelIdeal.Gen.shapeCasts_S32x1x256_S32x256
      = Cert.ReferenceIdeal.Read.val_main_v26 (F := Ideal) X := by
  funext i
  obtain ⟨b, k, rfl⟩ : ∃ (b : Fin 32) (k : Fin 256), i = ix2 b k := ⟨i 0, i 1, eq_ix2 i⟩
  rw [Cert.ReferenceIdeal.RVal.counts_ref, ← cnt_eq X hX b]
  refine (shapeCast_apply (Cert.KernelIdeal.KVal.Kout X) Cert.KernelIdeal.Gen.shapeCasts_S32x1x256_S32x256 (ix2 b k) (ix3 b (0 : Fin 1) k) ?_).trans rfl
  rw [Shape.rowMajor_val_three, Shape.rowMajor_val_two]
  show (b.val * 1 + 0) * 256 + k.val = b.val * 256 + k.val
  omega

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end at the loss of the same counts. -/
theorem algebraic : Cert.algebraic_KernelIdeal_ReferenceIdeal := by
  intro m ρ m' ρ' hpre hagree
  refine ⟨fun c => Cert.KernelIdeal.KVal.lossOf (shapeCast Cert.KernelIdeal.S32x256
      (Cert.KernelIdeal.KVal.Kout (Cert.KernelIdeal.KVal.img m c)) Cert.KernelIdeal.Gen.shapeCasts_S32x1x256_S32x256),
    Cert.KernelIdeal.KVal.run m ρ, ?_⟩
  refine (θ_run Cert.ReferenceIdeal.defs _ _).mono (fun _ h c => ⟨(h c).1.trans ?_, (h c).2⟩)
    (Cert.ReferenceIdeal.Value.run (F := Ideal) m' ρ')
  have hX : ∀ i, ∃ r : ℝ, Cert.KernelIdeal.KVal.img m c i = (r : EReal) := fun i => real_of_finite _ (hpre c) i
  rw [Cert.ReferenceIdeal.Read.val_main_v38_eq, ref_loss, hagree c]
  exact congrArg Cert.KernelIdeal.KVal.lossOf (counts_eq (Cert.KernelIdeal.KVal.img m c) hX).symm

end Cert.Proof.HistClaims

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    HistClaims.frame_k, HistClaims.frame_ki, HistClaims.frame_ri, trivial, HistClaims.algebraic⟩

end Cert.Proof

end
